-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v95) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x4096x512 : Shape := ⟨3, ![16, 4096, 512]⟩
abbrev S8x512 : Shape := ⟨2, ![8, 512]⟩
abbrev S_ : Shape := ⟨0, ![]⟩

class Facts : Prop where
  bcast_S_S16x4096x512 : S_.BroadcastsInDim S16x4096x512 (![] : Fin 0 → Fin S16x4096x512.rank)
  reducesTo_S16x4096x512_S_d0_1_2 : S16x4096x512.ReducesTo [0, 1, 2] S_
  h_S_ : 0 < S_.numel
  bcast_S_S8x512 : S_.BroadcastsInDim S8x512 (![] : Fin 0 → Fin S8x512.rank)
  reducesTo_S8x512_S_d0_1 : S8x512.ReducesTo [0, 1] S_

variable [Facts]

def fn {F : FTy → Type} [FloatOps F] (main_arg0 : FVec F S16x4096x512 .f32) (main_arg1 : FVec F S8x512 .f32) (main_arg2 : FVec F S8x512 .f32) : IVec S_ 1 :=
  let main_v0 : FVec F S16x4096x512 .f32 := Host.absf main_arg0
  let main_cst : FVec F S_ .f32 := constant S_ .f32 0x7F800000#32
  let main_v1 : FVec F S16x4096x512 .f32 := broadcastInDim S16x4096x512 ![] bcast_S_S16x4096x512 main_cst
  let main_v2 : IVec S16x4096x512 1 := cmpf .olt main_v0 main_v1
  let main_c : IVec S_ 1 := constantI S_ 1 1#1
  let main_v3 : IVec S_ 1 := (fun x v => Host.reduce IntOp.andi x v reducesTo_S16x4096x512_S_d0_1_2 h_S_) main_v2 main_c
  let main_v4 : FVec F S8x512 .f32 := Host.absf main_arg1
  let main_cst_0 : FVec F S_ .f32 := constant S_ .f32 0x7F800000#32
  let main_v5 : FVec F S8x512 .f32 := broadcastInDim S8x512 ![] bcast_S_S8x512 main_cst_0
  let main_v6 : IVec S8x512 1 := cmpf .olt main_v4 main_v5
  let main_c_1 : IVec S_ 1 := constantI S_ 1 1#1
  let main_v7 : IVec S_ 1 := (fun x v => Host.reduce IntOp.andi x v reducesTo_S8x512_S_d0_1 h_S_) main_v6 main_c_1
  let main_v8 : IVec S_ 1 := andi main_v3 main_v7
  let main_v9 : FVec F S8x512 .f32 := Host.absf main_arg2
  let main_cst_2 : FVec F S_ .f32 := constant S_ .f32 0x7F800000#32
  let main_v10 : FVec F S8x512 .f32 := broadcastInDim S8x512 ![] bcast_S_S8x512 main_cst_2
  let main_v11 : IVec S8x512 1 := cmpf .olt main_v9 main_v10
  let main_c_3 : IVec S_ 1 := constantI S_ 1 1#1
  let main_v12 : IVec S_ 1 := (fun x v => Host.reduce IntOp.andi x v reducesTo_S8x512_S_d0_1 h_S_) main_v11 main_c_3
  let main_v13 : IVec S_ 1 := andi main_v8 main_v12
  main_v13
-- ==== Kernel.lean ====
abbrev S16x4096x512 : Shape := ⟨3, ![16, 4096, 512]⟩
abbrev S8x512 : Shape := ⟨2, ![8, 512]⟩
abbrev S_ : Shape := ⟨0, ![]⟩
abbrev S16x4128x512 : Shape := ⟨3, ![16, 4128, 512]⟩
abbrev S4x256x512 : Shape := ⟨3, ![4, 256, 512]⟩
abbrev S2x4x288x512 : Shape := ⟨4, ![2, 4, 288, 512]⟩
abbrev S2 : Shape := ⟨1, ![2]⟩
abbrev S1 : Shape := ⟨1, ![1]⟩
abbrev S1x4x288x512 : Shape := ⟨4, ![1, 4, 288, 512]⟩
abbrev S4x288x512 : Shape := ⟨3, ![4, 288, 512]⟩
abbrev S1x512 : Shape := ⟨2, ![1, 512]⟩
abbrev S512 : Shape := ⟨1, ![512]⟩
abbrev S1x1x512 : Shape := ⟨3, ![1, 1, 512]⟩

abbrev nBuf : Space → Nat
  | .hbm => 7
  | .vmem => 5
  | .smem => 0
  | _ => 0

abbrev bufTy : (tb : Table) → Fin (tcTables nBuf tb) → BufTy
  | .hbm, ⟨0, _⟩ => ⟨S16x4096x512, .f32⟩
  | .hbm, ⟨1, _⟩ => ⟨S8x512, .f32⟩
  | .hbm, ⟨2, _⟩ => ⟨S8x512, .f32⟩
  | .hbm, ⟨3, _⟩ => ⟨S_, .i32⟩
  | .hbm, ⟨4, _⟩ => ⟨S_, .f32⟩
  | .hbm, ⟨5, _⟩ => ⟨S16x4128x512, .f32⟩
  | .hbm, ⟨6, _⟩ => ⟨S16x4096x512, .f32⟩
  | .local _ .vmem, ⟨0, _⟩ => ⟨S8x512, .f32⟩
  | .local _ .vmem, ⟨1, _⟩ => ⟨S8x512, .f32⟩
  | .local _ .vmem, ⟨2, _⟩ => ⟨S4x256x512, .f32⟩
  | .local _ .vmem, ⟨3, _⟩ => ⟨S4x256x512, .f32⟩
  | .local _ .vmem, ⟨4, _⟩ => ⟨S2x4x288x512, .f32⟩
  | _, _ => ⟨S16x4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_scratch0 : Ref sig .tc := ⟨.vmem, 4, rfl⟩
abbrev cc0_sem0_0 : DmaSem sig := 0
abbrev cc0_sem1_0 : DmaSem sig := 1
abbrev cc0_sem2_0 : DmaSem sig := 2
abbrev cc0_sem2_1 : DmaSem sig := 3

abbrev nD : Nat := 1
abbrev τ : Topo := Topo.v7x

variable {F : FTy → Type} [FloatOps F]

abbrev grid0 : Pipeline.Grid := ⟨2, ![4, 16], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def k0_mult1 : BitVec 32 :=
  let c0_i32_39 : BitVec 32 := 0#32
  c0_i32_39
def k0_mult2 : BitVec 32 :=
  let c0_i32_40 : BitVec 32 := 0#32
  c0_i32_40
def k0_off1 (i : grid0.Coords) : Fin 1 → Nat :=
  let arg0 : BitVec 32 := BitVec.ofNat 32 (i 0).val
  let c16_i32 : BitVec 32 := 16#32
  let v5 : BitVec 32 := Scalar.muli arg0 c16_i32
  let arg1 : BitVec 32 := BitVec.ofNat 32 (i 1).val
  let v6 : BitVec 32 := Scalar.addi v5 arg1
  let c2_i32 : BitVec 32 := 2#32
  let c0_i32_2 : BitVec 32 := 0#32
  let v7 : BitVec 1 := Scalar.cmpi .eq c2_i32 c0_i32_2
  let c1_i32 : BitVec 32 := 1#32
  let v8 : BitVec 32 := Scalar.select v7 c1_i32 c2_i32
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  ![v16.toNat]
def k0_off2 (i : grid0.Coords) : Fin 4 → Nat :=
  let arg0 : BitVec 32 := BitVec.ofNat 32 (i 0).val
  let c16_i32 : BitVec 32 := 16#32
  let v5 : BitVec 32 := Scalar.muli arg0 c16_i32
  let arg1 : BitVec 32 := BitVec.ofNat 32 (i 1).val
  let v6 : BitVec 32 := Scalar.addi v5 arg1
  let c2_i32 : BitVec 32 := 2#32
  let c0_i32_2 : BitVec 32 := 0#32
  let v7 : BitVec 1 := Scalar.cmpi .eq c2_i32 c0_i32_2
  let c1_i32 : BitVec 32 := 1#32
  let v8 : BitVec 32 := Scalar.select v7 c1_i32 c2_i32
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c0_i32_6 : BitVec 32 := 0#32
  let c0_i32_7 : BitVec 32 := 0#32
  let c0_i32_8 : BitVec 32 := 0#32
  ![v16.toNat, 0, 0, 0]
def k0_cond2 (i : grid0.Coords) : BitVec 1 :=
  let arg0 : BitVec 32 := BitVec.ofNat 32 (i 0).val
  let c3_i32 : BitVec 32 := 3#32
  let v23 : BitVec 1 := Scalar.cmpi .eq arg0 c3_i32
  let arg1 : BitVec 32 := BitVec.ofNat 32 (i 1).val
  let c15_i32 : BitVec 32 := 15#32
  let v22 : BitVec 1 := Scalar.cmpi .eq arg1 c15_i32
  let v24 : BitVec 1 := Scalar.andi v23 v22
  let v_true : BitVec 1 := 1#1
  let v30 : BitVec 1 := Scalar.xori v24 v_true
  let v31 : BitVec 32 := Scalar.extui v30
  let c0_i32_16 : BitVec 32 := 0#32
  let v32 : BitVec 1 := Scalar.cmpi .ne v31 c0_i32_16
  v32

def k0_mult3 (i : grid0.Coords) : BitVec 32 :=
  let arg1 : BitVec 32 := BitVec.ofNat 32 (i 1).val
  let c15_i32 : BitVec 32 := 15#32
  let v22 : BitVec 1 := Scalar.cmpi .eq arg1 c15_i32
  let arg0 : BitVec 32 := BitVec.ofNat 32 (i 0).val
  let c1_i32_14 : BitVec 32 := 1#32
  let v27 : BitVec 32 := Scalar.addi arg0 c1_i32_14
  let v28 : BitVec 32 := Scalar.select v22 v27 arg0
  let c4_i32 : BitVec 32 := 4#32
  let v122 : BitVec 32 := Scalar.muli v28 c4_i32
  v122
def k0_mult4 (i : grid0.Coords) : BitVec 32 :=
  let arg1 : BitVec 32 := BitVec.ofNat 32 (i 1).val
  let c15_i32 : BitVec 32 := 15#32
  let v22 : BitVec 1 := Scalar.cmpi .eq arg1 c15_i32
  let c0_i32_13 : BitVec 32 := 0#32
  let c1_i32_12 : BitVec 32 := 1#32
  let v25 : BitVec 32 := Scalar.addi arg1 c1_i32_12
  let v26 : BitVec 32 := Scalar.select v22 c0_i32_13 v25
  let c256_i32 : BitVec 32 := 256#32
  let v124 : BitVec 32 := Scalar.muli v26 c256_i32
  v124
def k0_off3 (i : grid0.Coords) : Fin 1 → Nat :=
  let c1_i32_15 : BitVec 32 := 1#32
  let arg0 : BitVec 32 := BitVec.ofNat 32 (i 0).val
  let c16_i32 : BitVec 32 := 16#32
  let v5 : BitVec 32 := Scalar.muli arg0 c16_i32
  let arg1 : BitVec 32 := BitVec.ofNat 32 (i 1).val
  let v6 : BitVec 32 := Scalar.addi v5 arg1
  let c2_i32 : BitVec 32 := 2#32
  let c0_i32_2 : BitVec 32 := 0#32
  let v7 : BitVec 1 := Scalar.cmpi .eq c2_i32 c0_i32_2
  let c1_i32 : BitVec 32 := 1#32
  let v8 : BitVec 32 := Scalar.select v7 c1_i32 c2_i32
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let v29 : BitVec 32 := Scalar.subi c1_i32_15 v16
  ![v29.toNat]
def k0_off4 (i : grid0.Coords) : Fin 4 → Nat :=
  let c1_i32_15 : BitVec 32 := 1#32
  let arg0 : BitVec 32 := BitVec.ofNat 32 (i 0).val
  let c16_i32 : BitVec 32 := 16#32
  let v5 : BitVec 32 := Scalar.muli arg0 c16_i32
  let arg1 : BitVec 32 := BitVec.ofNat 32 (i 1).val
  let v6 : BitVec 32 := Scalar.addi v5 arg1
  let c2_i32 : BitVec 32 := 2#32
  let c0_i32_2 : BitVec 32 := 0#32
  let v7 : BitVec 1 := Scalar.cmpi .eq c2_i32 c0_i32_2
  let c1_i32 : BitVec 32 := 1#32
  let v8 : BitVec 32 := Scalar.select v7 c1_i32 c2_i32
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let v29 : BitVec 32 := Scalar.subi c1_i32_15 v16
  let c0_i32_39 : BitVec 32 := 0#32
  let c0_i32_40 : BitVec 32 := 0#32
  let c0_i32_41 : BitVec 32 := 0#32
  ![v29.toNat, 0, 0, 0]
def k0_off5 (i : grid0.Coords) : Fin 3 → Nat :=
  let arg1 : BitVec 32 := BitVec.ofNat 32 (i 1).val
  let c15_i32 : BitVec 32 := 15#32
  let v22 : BitVec 1 := Scalar.cmpi .eq arg1 c15_i32
  let arg0 : BitVec 32 := BitVec.ofNat 32 (i 0).val
  let c1_i32_14 : BitVec 32 := 1#32
  let v27 : BitVec 32 := Scalar.addi arg0 c1_i32_14
  let v28 : BitVec 32 := Scalar.select v22 v27 arg0
  let c4_i32 : BitVec 32 := 4#32
  let v122 : BitVec 32 := Scalar.muli v28 c4_i32
  let v123 : BitVec 32 := v122
  let c0_i32_13 : BitVec 32 := 0#32
  let c1_i32_12 : BitVec 32 := 1#32
  let v25 : BitVec 32 := Scalar.addi arg1 c1_i32_12
  let v26 : BitVec 32 := Scalar.select v22 c0_i32_13 v25
  let c256_i32 : BitVec 32 := 256#32
  let v124 : BitVec 32 := Scalar.muli v26 c256_i32
  let v125 : BitVec 32 := v124
  let c0_i32_42 : BitVec 32 := 0#32
  ![v123.toNat, v125.toNat, 0]
def k0_off6 (i : grid0.Coords) : Fin 4 → Nat :=
  let arg0 : BitVec 32 := BitVec.ofNat 32 (i 0).val
  let c16_i32 : BitVec 32 := 16#32
  let v5 : BitVec 32 := Scalar.muli arg0 c16_i32
  let arg1 : BitVec 32 := BitVec.ofNat 32 (i 1).val
  let v6 : BitVec 32 := Scalar.addi v5 arg1
  let c2_i32 : BitVec 32 := 2#32
  let c0_i32_2 : BitVec 32 := 0#32
  let v7 : BitVec 1 := Scalar.cmpi .eq c2_i32 c0_i32_2
  let c1_i32 : BitVec 32 := 1#32
  let v8 : BitVec 32 := Scalar.select v7 c1_i32 c2_i32
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let v33 : Index := Scalar.indexCast v16
  let c0 : Index := 0#32
  let c0_17 : Index := 0#32
  let c0_18 : Index := 0#32
  ![v33.toNat, 0, 0, 0]
def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S8x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S8x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S4x256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  pads_S16x4096x512_S16x4128x512_000_16160_000 : S16x4096x512.Pads (![0, 16, 0] : Fin 3 → Nat) ![0, 16, 0] ![0, 0, 0] S16x4128x512
  h_S_ : 0 < S_.numel
  inb_S2_S1_0 : ∀ a, (![0] : Fin 1 → Nat) a + S1.size a ≤ S2.size a
  squeezes_S1_S_ : S1.Squeezes S_
  inb_S2x4x288x512_S1x4x288x512_0_0_0_0 : ∀ a, (![0, 0, 0, 0] : Fin 4 → Nat) a + S1x4x288x512.size a ≤ S2x4x288x512.size a
  squeezes_S1x4x288x512_S4x288x512 : S1x4x288x512.Squeezes S4x288x512
  inb_S16x4128x512_S4x288x512_0_0_0 : ∀ a, (![0, 0, 0] : Fin 3 → Nat) a + S4x288x512.size a ≤ S16x4128x512.size a
  h_S1x4x288x512 : 0 < S1x4x288x512.numel
  shapeCasts_S1x4x288x512_S4x288x512 : S1x4x288x512.ShapeCasts S4x288x512
  slices_S4x288x512_o0_16_0_S4x256x512 : S4x288x512.Slices ![0, 16, 0] S4x256x512
  inb_S8x512_S1x512_7_0 : ∀ a, (![7, 0] : Fin 2 → Nat) a + S1x512.size a ≤ S8x512.size a
  h_S1x512 : 0 < S1x512.numel
  shapeCasts_S1x512_S512 : S1x512.ShapeCasts S512
  slices_S4x288x512_o0_15_0_S4x256x512 : S4x288x512.Slices ![0, 15, 0] S4x256x512
  shapeCasts_S512_S1x1x512 : S512.ShapeCasts S1x1x512
  broadcasts_S1x1x512_S4x256x512 : S1x1x512.Broadcasts S4x256x512
  inb_S8x512_S1x512_6_0 : ∀ a, (![6, 0] : Fin 2 → Nat) a + S1x512.size a ≤ S8x512.size a
  slices_S4x288x512_o0_12_0_S4x256x512 : S4x288x512.Slices ![0, 12, 0] S4x256x512
  inb_S8x512_S1x512_5_0 : ∀ a, (![5, 0] : Fin 2 → Nat) a + S1x512.size a ≤ S8x512.size a
  slices_S4x288x512_o0_9_0_S4x256x512 : S4x288x512.Slices ![0, 9, 0] S4x256x512
  inb_S8x512_S1x512_4_0 : ∀ a, (![4, 0] : Fin 2 → Nat) a + S1x512.size a ≤ S8x512.size a
  slices_S4x288x512_o0_6_0_S4x256x512 : S4x288x512.Slices ![0, 6, 0] S4x256x512
  inb_S8x512_S1x512_3_0 : ∀ a, (![3, 0] : Fin 2 → Nat) a + S1x512.size a ≤ S8x512.size a
  slices_S4x288x512_o0_3_0_S4x256x512 : S4x288x512.Slices ![0, 3, 0] S4x256x512
  inb_S8x512_S1x512_2_0 : ∀ a, (![2, 0] : Fin 2 → Nat) a + S1x512.size a ≤ S8x512.size a
  slices_S4x288x512_o0_0_0_S4x256x512 : S4x288x512.Slices ![0, 0, 0] S4x256x512
  inb_S8x512_S1x512_0_0 : ∀ a, (![0, 0] : Fin 2 → Nat) a + S1x512.size a ≤ S8x512.size a
  slices_S4x288x512_o0_17_0_S4x256x512 : S4x288x512.Slices ![0, 17, 0] S4x256x512
  inb_S8x512_S1x512_1_0 : ∀ a, (![1, 0] : Fin 2 → Nat) a + S1x512.size a ≤ S8x512.size a
  slices_S4x288x512_o0_20_0_S4x256x512 : S4x288x512.Slices ![0, 20, 0] S4x256x512
  slices_S4x288x512_o0_23_0_S4x256x512 : S4x288x512.Slices ![0, 23, 0] S4x256x512
  slices_S4x288x512_o0_26_0_S4x256x512 : S4x288x512.Slices ![0, 26, 0] S4x256x512
  slices_S4x288x512_o0_29_0_S4x256x512 : S4x288x512.Slices ![0, 29, 0] S4x256x512
  slices_S4x288x512_o0_32_0_S4x256x512 : S4x288x512.Slices ![0, 32, 0] S4x256x512
  inb_S4x256x512_S4x256x512_0_0_0 : ∀ a, (![0, 0, 0] : Fin 3 → Nat) a + S4x256x512.size a ≤ S4x256x512.size a
  h_S4x256x512 : 0 < S4x256x512.numel
  hcc0_scratch1 : 4 + S2.numel ≤ 6
  hrank0 : 0 < grid0.rank
  k0_mult1_dvd : ∀ i : grid0.Coords, ∀ (k0_h1 : k0_cond1 i = 1#1), 4 ∣ k0_mult1.toNat
  k0_mult2_dvd : ∀ i : grid0.Coords, ∀ (k0_h1 : k0_cond1 i = 1#1), 256 ∣ k0_mult2.toNat
  k0_off1_inb : ∀ i : grid0.Coords, ∀ a, (k0_off1 i) a + S1.size a ≤ S2.size a
  k0_off2_inb : ∀ i : grid0.Coords, ∀ a, (k0_off2 i) a + S1x4x288x512.size a ≤ S2x4x288x512.size a
  k0_mult3_dvd : ∀ i : grid0.Coords, ∀ (k0_h2 : k0_cond2 i = 1#1), 4 ∣ (k0_mult3 i).toNat
  k0_mult4_dvd : ∀ i : grid0.Coords, ∀ (k0_h2 : k0_cond2 i = 1#1), 256 ∣ (k0_mult4 i).toNat
  k0_off3_inb : ∀ i : grid0.Coords, ∀ (k0_h2 : k0_cond2 i = 1#1), ∀ a, (k0_off3 i) a + S1.size a ≤ S2.size a
  k0_off4_inb : ∀ i : grid0.Coords, ∀ (k0_h2 : k0_cond2 i = 1#1), ∀ a, (k0_off4 i) a + S1x4x288x512.size a ≤ S2x4x288x512.size a
  k0_off5_inb : ∀ i : grid0.Coords, ∀ (k0_h2 : k0_cond2 i = 1#1), ∀ a, (k0_off5 i) a + S4x288x512.size a ≤ S16x4128x512.size a
  k0_off6_inb : ∀ i : grid0.Coords, ∀ a, (k0_off6 i) a + S1x4x288x512.size a ≤ S2x4x288x512.size a
  hstage0_0 : ∀ j, (stage0_0 j).IsWhole
  nbuf0_0 : grid0.bufCount reads0_0 true = 1
  hreads0_0 : ∀ i i' : grid0.Coords, (∀ a, reads0_0 a = true → i a = i' a) → cc0_transform_1 i = cc0_transform_1 i'
  hinb0_0 : ∀ (i : grid0.Coords) a, (cc0_transform_1 i a + 1) * S8x512.size a ≤ S8x512.size a
  hwx0_0 : ∀ i : grid0.Coords, EltTy.bits .f32 = 32 ∨ (Rect.block (s := S8x512) S8x512.size (cc0_transform_1 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_2 i = cc0_transform_2 i'
  hinb0_1 : ∀ (i : grid0.Coords) a, (cc0_transform_2 i a + 1) * S8x512.size a ≤ S8x512.size a
  hwx0_1 : ∀ i : grid0.Coords, EltTy.bits .f32 = 32 ∨ (Rect.block (s := S8x512) S8x512.size (cc0_transform_2 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_3 i = cc0_transform_3 i'
  hinb0_2 : ∀ (i : grid0.Coords) a, (cc0_transform_3 i a + 1) * S4x256x512.size a ≤ S16x4096x512.size a
  hwx0_2 : ∀ i : grid0.Coords, EltTy.bits .f32 = 32 ∨ (Rect.block (s := S16x4096x512) S4x256x512.size (cc0_transform_3 i) (hinb0_2 i)).WholeWords (EltTy.packing .f32)

variable [Facts₀]

abbrev cc0_scratch1 : DmaSems sig S2 := SemArray.consecutive 4 S2 hcc0_scratch1

abbrev win0_0 : Pipeline.Window sig grid0 :=
  Pipeline.Window.ofSpec (Memref.whole main_arg1) S8x512.size cc0_transform_1 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S8x512.size cc0_transform_2 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S4x256x512.size cc0_transform_3 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16x4096x512 : Shape := ⟨3, ![16, 4096, 512]⟩
abbrev S8x512 : Shape := ⟨2, ![8, 512]⟩
abbrev S_ : Shape := ⟨0, ![]⟩
abbrev S16x4097x512 : Shape := ⟨3, ![16, 4097, 512]⟩
abbrev S1x512 : Shape := ⟨2, ![1, 512]⟩
abbrev S512 : Shape := ⟨1, ![512]⟩
abbrev S1x1x512 : Shape := ⟨3, ![1, 1, 512]⟩
abbrev S16x4100x512 : Shape := ⟨3, ![16, 4100, 512]⟩
abbrev S16x4103x512 : Shape := ⟨3, ![16, 4103, 512]⟩
abbrev S16x4106x512 : Shape := ⟨3, ![16, 4106, 512]⟩
abbrev S16x4109x512 : Shape := ⟨3, ![16, 4109, 512]⟩
abbrev S16x4112x512 : Shape := ⟨3, ![16, 4112, 512]⟩

abbrev nBuf : Space → Nat
  | .hbm => 123
  | .vmem => 0
  | .smem => 0
  | _ => 0

abbrev bufTy : (tb : Table) → Fin (tcTables nBuf tb) → BufTy
  | .hbm, ⟨0, _⟩ => ⟨S16x4096x512, .f32⟩
  | .hbm, ⟨1, _⟩ => ⟨S8x512, .f32⟩
  | .hbm, ⟨2, _⟩ => ⟨S8x512, .f32⟩
  | .hbm, ⟨3, _⟩ => ⟨S_, .i32⟩
  | .hbm, ⟨4, _⟩ => ⟨S_, .f32⟩
  | .hbm, ⟨5, _⟩ => ⟨S16x4097x512, .f32⟩
  | .hbm, ⟨6, _⟩ => ⟨S16x4096x512, .f32⟩
  | .hbm, ⟨7, _⟩ => ⟨S1x512, .f32⟩
  | .hbm, ⟨8, _⟩ => ⟨S512, .f32⟩
  | .hbm, ⟨9, _⟩ => ⟨S1x1x512, .f32⟩
  | .hbm, ⟨10, _⟩ => ⟨S16x4096x512, .f32⟩
  | .hbm, ⟨11, _⟩ => ⟨S16x4096x512, .f32⟩
  | .hbm, ⟨12, _⟩ => ⟨S16x4096x512, .f32⟩
  | .hbm, ⟨13, _⟩ => ⟨S_, .i32⟩
  | .hbm, ⟨14, _⟩ => ⟨S_, .f32⟩
  | .hbm, ⟨15, _⟩ => ⟨S16x4100x512, .f32⟩
  | .hbm, ⟨16, _⟩ => ⟨S16x4096x512, .f32⟩
  | .hbm, ⟨17, _⟩ => ⟨S1x512, .f32⟩
  | .hbm, ⟨18, _⟩ => ⟨S512, .f32⟩
  | .hbm, ⟨19, _⟩ => ⟨S1x1x512, .f32⟩
  | .hbm, ⟨20, _⟩ => ⟨S16x4096x512, .f32⟩
  | .hbm, ⟨21, _⟩ => ⟨S16x4096x512, .f32⟩
  | .hbm, ⟨22, _⟩ => ⟨S16x4096x512, .f32⟩
  | .hbm, ⟨23, _⟩ => ⟨S_, .i32⟩
  | .hbm, ⟨24, _⟩ => ⟨S_, .f32⟩
  | .hbm, ⟨25, _⟩ => ⟨S16x4103x512, .f32⟩
  | .hbm, ⟨26, _⟩ => ⟨S16x4096x512, .f32⟩
  | .hbm, ⟨27, _⟩ => ⟨S1x512, .f32⟩
  | .hbm, ⟨28, _⟩ => ⟨S512, .f32⟩
  | .hbm, ⟨29, _⟩ => ⟨S1x1x512, .f32⟩
  | .hbm, ⟨30, _⟩ => ⟨S16x4096x512, .f32⟩
  | .hbm, ⟨31, _⟩ => ⟨S16x4096x512, .f32⟩
  | .hbm, ⟨32, _⟩ => ⟨S16x4096x512, .f32⟩
  | .hbm, ⟨33, _⟩ => ⟨S_, .i32⟩
  | .hbm, ⟨34, _⟩ => ⟨S_, .f32⟩
  | .hbm, ⟨35, _⟩ => ⟨S16x4106x512, .f32⟩
  | .hbm, ⟨36, _⟩ => ⟨S16x4096x512, .f32⟩
  | .hbm, ⟨37, _⟩ => ⟨S1x512, .f32⟩
  | .hbm, ⟨38, _⟩ => ⟨S512, .f32⟩
  | .hbm, ⟨39, _⟩ => ⟨S1x1x512, .f32⟩
  | .hbm, ⟨40, _⟩ => ⟨S16x4096x512, .f32⟩
  | .hbm, ⟨41, _⟩ => ⟨S16x4096x512, .f32⟩
  | .hbm, ⟨42, _⟩ => ⟨S16x4096x512, .f32⟩
  | .hbm, ⟨43, _⟩ => ⟨S_, .i32⟩
  | .hbm, ⟨44, _⟩ => ⟨S_, .f32⟩
  | .hbm, ⟨45, _⟩ => ⟨S16x4109x512, .f32⟩
  | .hbm, ⟨46, _⟩ => ⟨S16x4096x512, .f32⟩
  | .hbm, ⟨47, _⟩ => ⟨S1x512, .f32⟩
  | .hbm, ⟨48, _⟩ => ⟨S512, .f32⟩
  | .hbm, ⟨49, _⟩ => ⟨S1x1x512, .f32⟩
  | .hbm, ⟨50, _⟩ => ⟨S16x4096x512, .f32⟩
  | .hbm, ⟨51, _⟩ => ⟨S16x4096x512, .f32⟩
  | .hbm, ⟨52, _⟩ => ⟨S16x4096x512, .f32⟩
  | .hbm, ⟨53, _⟩ => ⟨S_, .i32⟩
  | .hbm, ⟨54, _⟩ => ⟨S_, .f32⟩
  | .hbm, ⟨55, _⟩ => ⟨S16x4112x512, .f32⟩
  | .hbm, ⟨56, _⟩ => ⟨S16x4096x512, .f32⟩
  | .hbm, ⟨57, _⟩ => ⟨S1x512, .f32⟩
  | .hbm, ⟨58, _⟩ => ⟨S512, .f32⟩
  | .hbm, ⟨59, _⟩ => ⟨S1x1x512, .f32⟩
  | .hbm, ⟨60, _⟩ => ⟨S16x4096x512, .f32⟩
  | .hbm, ⟨61, _⟩ => ⟨S16x4096x512, .f32⟩
  | .hbm, ⟨62, _⟩ => ⟨S16x4096x512, .f32⟩
  | .hbm, ⟨63, _⟩ => ⟨S_, .i32⟩
  | .hbm, ⟨64, _⟩ => ⟨S_, .f32⟩
  | .hbm, ⟨65, _⟩ => ⟨S16x4097x512, .f32⟩
  | .hbm, ⟨66, _⟩ => ⟨S16x4096x512, .f32⟩
  | .hbm, ⟨67, _⟩ => ⟨S1x512, .f32⟩
  | .hbm, ⟨68, _⟩ => ⟨S512, .f32⟩
  | .hbm, ⟨69, _⟩ => ⟨S1x1x512, .f32⟩
  | .hbm, ⟨70, _⟩ => ⟨S16x4096x512, .f32⟩
  | .hbm, ⟨71, _⟩ => ⟨S16x4096x512, .f32⟩
  | .hbm, ⟨72, _⟩ => ⟨S16x4096x512, .f32⟩
  | .hbm, ⟨73, _⟩ => ⟨S_, .i32⟩
  | .hbm, ⟨74, _⟩ => ⟨S_, .f32⟩
  | .hbm, ⟨75, _⟩ => ⟨S16x4100x512, .f32⟩
  | .hbm, ⟨76, _⟩ => ⟨S16x4096x512, .f32⟩
  | .hbm, ⟨77, _⟩ => ⟨S1x512, .f32⟩
  | .hbm, ⟨78, _⟩ => ⟨S512, .f32⟩
  | .hbm, ⟨79, _⟩ => ⟨S1x1x512, .f32⟩
  | .hbm, ⟨80, _⟩ => ⟨S16x4096x512, .f32⟩
  | .hbm, ⟨81, _⟩ => ⟨S16x4096x512, .f32⟩
  | .hbm, ⟨82, _⟩ => ⟨S16x4096x512, .f32⟩
  | .hbm, ⟨83, _⟩ => ⟨S_, .i32⟩
  | .hbm, ⟨84, _⟩ => ⟨S_, .f32⟩
  | .hbm, ⟨85, _⟩ => ⟨S16x4103x512, .f32⟩
  | .hbm, ⟨86, _⟩ => ⟨S16x4096x512, .f32⟩
  | .hbm, ⟨87, _⟩ => ⟨S1x512, .f32⟩
  | .hbm, ⟨88, _⟩ => ⟨S512, .f32⟩
  | .hbm, ⟨89, _⟩ => ⟨S1x1x512, .f32⟩
  | .hbm, ⟨90, _⟩ => ⟨S16x4096x512, .f32⟩
  | .hbm, ⟨91, _⟩ => ⟨S16x4096x512, .f32⟩
  | .hbm, ⟨92, _⟩ => ⟨S16x4096x512, .f32⟩
  | .hbm, ⟨93, _⟩ => ⟨S_, .i32⟩
  | .hbm, ⟨94, _⟩ => ⟨S_, .f32⟩
  | .hbm, ⟨95, _⟩ => ⟨S16x4106x512, .f32⟩
  | .hbm, ⟨96, _⟩ => ⟨S16x4096x512, .f32⟩
  | .hbm, ⟨97, _⟩ => ⟨S1x512, .f32⟩
  | .hbm, ⟨98, _⟩ => ⟨S512, .f32⟩
  | .hbm, ⟨99, _⟩ => ⟨S1x1x512, .f32⟩
  | .hbm, ⟨100, _⟩ => ⟨S16x4096x512, .f32⟩
  | .hbm, ⟨101, _⟩ => ⟨S16x4096x512, .f32⟩
  | .hbm, ⟨102, _⟩ => ⟨S16x4096x512, .f32⟩
  | .hbm, ⟨103, _⟩ => ⟨S_, .i32⟩
  | .hbm, ⟨104, _⟩ => ⟨S_, .f32⟩
  | .hbm, ⟨105, _⟩ => ⟨S16x4109x512, .f32⟩
  | .hbm, ⟨106, _⟩ => ⟨S16x4096x512, .f32⟩
  | .hbm, ⟨107, _⟩ => ⟨S1x512, .f32⟩
  | .hbm, ⟨108, _⟩ => ⟨S512, .f32⟩
  | .hbm, ⟨109, _⟩ => ⟨S1x1x512, .f32⟩
  | .hbm, ⟨110, _⟩ => ⟨S16x4096x512, .f32⟩
  | .hbm, ⟨111, _⟩ => ⟨S16x4096x512, .f32⟩
  | .hbm, ⟨112, _⟩ => ⟨S16x4096x512, .f32⟩
  | .hbm, ⟨113, _⟩ => ⟨S_, .i32⟩
  | .hbm, ⟨114, _⟩ => ⟨S_, .f32⟩
  | .hbm, ⟨115, _⟩ => ⟨S16x4112x512, .f32⟩
  | .hbm, ⟨116, _⟩ => ⟨S16x4096x512, .f32⟩
  | .hbm, ⟨117, _⟩ => ⟨S1x512, .f32⟩
  | .hbm, ⟨118, _⟩ => ⟨S512, .f32⟩
  | .hbm, ⟨119, _⟩ => ⟨S1x1x512, .f32⟩
  | .hbm, ⟨120, _⟩ => ⟨S16x4096x512, .f32⟩
  | .hbm, ⟨121, _⟩ => ⟨S16x4096x512, .f32⟩
  | .hbm, ⟨122, _⟩ => ⟨S16x4096x512, .f32⟩
  | _, _ => ⟨S16x4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c_0 : Ref sig .tc := ⟨.hbm, 13, rfl⟩
abbrev main_call1_v0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_c_1 : Ref sig .tc := ⟨.hbm, 23, rfl⟩
abbrev main_call2_v0 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_c_2 : Ref sig .tc := ⟨.hbm, 33, rfl⟩
abbrev main_call3_v0 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_c_3 : Ref sig .tc := ⟨.hbm, 43, rfl⟩
abbrev main_call4_v0 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_c_4 : Ref sig .tc := ⟨.hbm, 53, rfl⟩
abbrev main_call5_v0 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_c_5 : Ref sig .tc := ⟨.hbm, 63, rfl⟩
abbrev main_call6_v0 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_c_6 : Ref sig .tc := ⟨.hbm, 73, rfl⟩
abbrev main_call7_v0 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_c_7 : Ref sig .tc := ⟨.hbm, 83, rfl⟩
abbrev main_call8_v0 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_c_8 : Ref sig .tc := ⟨.hbm, 93, rfl⟩
abbrev main_call9_v0 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_c_9 : Ref sig .tc := ⟨.hbm, 103, rfl⟩
abbrev main_call10_v0 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_c_10 : Ref sig .tc := ⟨.hbm, 113, rfl⟩
abbrev main_call11_v0 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩

abbrev nD : Nat := 1
abbrev τ : Topo := Topo.v7x

variable {F : FTy → Type} [FloatOps F]

class Facts₀ : Prop where
  pads_S16x4096x512_S16x4097x512_000_100_000 : S16x4096x512.Pads (![0, 1, 0] : Fin 3 → Nat) ![0, 0, 0] ![0, 0, 0] S16x4097x512
  h_S_ : 0 < S_.numel
  slices_S16x4097x512_S16x4096x512_0_0_0 : S16x4097x512.Slices ![0, 0, 0] S16x4096x512
  slices_S8x512_S1x512_7_0 : S8x512.Slices ![7, 0] S1x512
  shapeCasts_S1x512_S512 : S1x512.ShapeCasts S512
  bcast_S512_S1x1x512_2 : S512.BroadcastsInDim S1x1x512 (![2] : Fin 1 → Fin S1x1x512.rank)
  bcast_S1x1x512_S16x4096x512_0_1_2 : S1x1x512.BroadcastsInDim S16x4096x512 (![0, 1, 2] : Fin 3 → Fin S16x4096x512.rank)
  pads_S16x4096x512_S16x4100x512_000_400_000 : S16x4096x512.Pads (![0, 4, 0] : Fin 3 → Nat) ![0, 0, 0] ![0, 0, 0] S16x4100x512
  slices_S16x4100x512_S16x4096x512_0_0_0 : S16x4100x512.Slices ![0, 0, 0] S16x4096x512
  slices_S8x512_S1x512_6_0 : S8x512.Slices ![6, 0] S1x512
  pads_S16x4096x512_S16x4103x512_000_700_000 : S16x4096x512.Pads (![0, 7, 0] : Fin 3 → Nat) ![0, 0, 0] ![0, 0, 0] S16x4103x512
  slices_S16x4103x512_S16x4096x512_0_0_0 : S16x4103x512.Slices ![0, 0, 0] S16x4096x512
  slices_S8x512_S1x512_5_0 : S8x512.Slices ![5, 0] S1x512
  pads_S16x4096x512_S16x4106x512_000_1000_000 : S16x4096x512.Pads (![0, 10, 0] : Fin 3 → Nat) ![0, 0, 0] ![0, 0, 0] S16x4106x512
  slices_S16x4106x512_S16x4096x512_0_0_0 : S16x4106x512.Slices ![0, 0, 0] S16x4096x512
  slices_S8x512_S1x512_4_0 : S8x512.Slices ![4, 0] S1x512
  pads_S16x4096x512_S16x4109x512_000_1300_000 : S16x4096x512.Pads (![0, 13, 0] : Fin 3 → Nat) ![0, 0, 0] ![0, 0, 0] S16x4109x512
  slices_S16x4109x512_S16x4096x512_0_0_0 : S16x4109x512.Slices ![0, 0, 0] S16x4096x512
  slices_S8x512_S1x512_3_0 : S8x512.Slices ![3, 0] S1x512
  pads_S16x4096x512_S16x4112x512_000_1600_000 : S16x4096x512.Pads (![0, 16, 0] : Fin 3 → Nat) ![0, 0, 0] ![0, 0, 0] S16x4112x512
  slices_S16x4112x512_S16x4096x512_0_0_0 : S16x4112x512.Slices ![0, 0, 0] S16x4096x512
  slices_S8x512_S1x512_2_0 : S8x512.Slices ![2, 0] S1x512
  pads_S16x4096x512_S16x4097x512_000_010_000 : S16x4096x512.Pads (![0, 0, 0] : Fin 3 → Nat) ![0, 1, 0] ![0, 0, 0] S16x4097x512
  slices_S16x4097x512_S16x4096x512_0_1_0 : S16x4097x512.Slices ![0, 1, 0] S16x4096x512
  slices_S8x512_S1x512_0_0 : S8x512.Slices ![0, 0] S1x512
  pads_S16x4096x512_S16x4100x512_000_040_000 : S16x4096x512.Pads (![0, 0, 0] : Fin 3 → Nat) ![0, 4, 0] ![0, 0, 0] S16x4100x512
  slices_S16x4100x512_S16x4096x512_0_4_0 : S16x4100x512.Slices ![0, 4, 0] S16x4096x512
  slices_S8x512_S1x512_1_0 : S8x512.Slices ![1, 0] S1x512
  pads_S16x4096x512_S16x4103x512_000_070_000 : S16x4096x512.Pads (![0, 0, 0] : Fin 3 → Nat) ![0, 7, 0] ![0, 0, 0] S16x4103x512
  slices_S16x4103x512_S16x4096x512_0_7_0 : S16x4103x512.Slices ![0, 7, 0] S16x4096x512
  pads_S16x4096x512_S16x4106x512_000_0100_000 : S16x4096x512.Pads (![0, 0, 0] : Fin 3 → Nat) ![0, 10, 0] ![0, 0, 0] S16x4106x512
  slices_S16x4106x512_S16x4096x512_0_10_0 : S16x4106x512.Slices ![0, 10, 0] S16x4096x512
  pads_S16x4096x512_S16x4109x512_000_0130_000 : S16x4096x512.Pads (![0, 0, 0] : Fin 3 → Nat) ![0, 13, 0] ![0, 0, 0] S16x4109x512
  slices_S16x4109x512_S16x4096x512_0_13_0 : S16x4109x512.Slices ![0, 13, 0] S16x4096x512
  pads_S16x4096x512_S16x4112x512_000_0160_000 : S16x4096x512.Pads (![0, 0, 0] : Fin 3 → Nat) ![0, 16, 0] ![0, 0, 0] S16x4112x512
  slices_S16x4112x512_S16x4096x512_0_16_0 : S16x4112x512.Slices ![0, 16, 0] S16x4096x512

variable [Facts₀]

class Facts : Prop extends Facts₀ where

variable [Facts]
-- ==== Proof.Spec.lean ====
/-
  The banded, strided memory sum as ONE function of the three argument arrays.

  For a sequence array P[b, t, d] (16 × 4096 × 512) and two small tables L, R (8 × 512) the result at (b, t, d) is

      P[b,t,d] + L[7,d]·P[b,t-1,d] + L[6,d]·P[b,t-4,d] + L[5,d]·P[b,t-7,d]
               + L[4,d]·P[b,t-10,d] + L[3,d]·P[b,t-13,d] + L[2,d]·P[b,t-16,d]
               + R[0,d]·P[b,t+1,d] + R[1,d]·P[b,t+4,d] + R[2,d]·P[b,t+7,d]
               + R[3,d]·P[b,t+10,d] + R[4,d]·P[b,t+13,d] + R[5,d]·P[b,t+16,d],

  summed left to right in exactly this order, a row outside 0 ≤ t' < 4096 counting as zero.  Every shifted row is
  written through ONE function, `padRow`: row `s` of the sequence with sixteen zero rows put in front of it and sixteen
  behind, so that the row `t - j` is `padRow (t + 16 - j)` and the row `t + j` is `padRow (t + 16 + j)`.  Both programs
  compute exactly these thirteen terms in this order, so no law of the extended reals is needed to join them, only the
  identification of the rows.
-/
import Idealize.ShloMosaic.PureOps.Ideal
import Idealize.ShloMosaic.Lib.ValueIdx

noncomputable section

namespace Cert.Band

open Idealize.ShloMosaic Idealize.ShloMosaic.ValueIdx

/-- The sequence array's shape, the tables' shape. -/
abbrev SP : Shape := ⟨3, ![16, 4096, 512]⟩
abbrev SM : Shape := ⟨2, ![8, 512]⟩

/-- Row `s` (0 ≤ s < 4128 is what is ever asked) of the sequence padded with sixteen zero rows at either end of the
    time axis: the sequence's row `s - 16` when that is one of its 4096 rows, zero otherwise. -/
def padRow (P : SP.Idx → EReal) (b : Fin 16) (s : ℕ) (d : Fin 512) : EReal :=
  if h : 16 ≤ s ∧ s < 4112 then P (ix3 b ⟨s - 16, by omega⟩ d) else 0

/-- Inside the sequence the padded row is the sequence's. -/
theorem padRow_inside (P : SP.Idx → EReal) (b : Fin 16) (s : ℕ) (d : Fin 512) (t : Fin 4096) (h : s = t.val + 16) :
    padRow P b s d = P (ix3 b t d) := by
  unfold padRow
  rw [dif_pos ⟨by omega, by have := t.isLt; omega⟩]
  exact congrArg P (congrArg (fun r => ix3 b r d) (Fin.ext (by show s - 16 = t.val; omega)))

/-- Outside it is zero. -/
theorem padRow_outside (P : SP.Idx → EReal) (b : Fin 16) (s : ℕ) (d : Fin 512) (h : ¬(16 ≤ s ∧ s < 4112)) :
    padRow P b s d = 0 := by
  unfold padRow
  rw [dif_neg h]

/-- The thirteen terms at batch `b`, time `t`, feature `d`, over any reading `row s` of the padded sequence's rows and
    any readings `l k`, `r k` of the tables' rows at feature `d`: the centre row, six rows behind, six rows ahead. -/
def bandSum (row : ℕ → EReal) (l r : Fin 8 → EReal) (t : ℕ) : EReal :=
  row (t + 16) + l 7 * row (t + 15) + l 6 * row (t + 12) + l 5 * row (t + 9) + l 4 * row (t + 6) + l 3 * row (t + 3)
    + l 2 * row (t + 0) + r 0 * row (t + 17) + r 1 * row (t + 20) + r 2 * row (t + 23) + r 3 * row (t + 26)
    + r 4 * row (t + 29) + r 5 * row (t + 32)

/-- The result array as a function of the three argument arrays. -/
def result (P : SP.Idx → EReal) (L R : SM.Idx → EReal) : SP.Idx → EReal := fun i =>
  bandSum (fun s => padRow P (i 0) s (i 2)) (fun k => L (ix2 k (i 2))) (fun k => R (ix2 k (i 2))) (i 1).val

end Cert.Band

end
-- ==== Proof.RefSide.lean ====
/-
  The reference side of the banded memory sum: the value the reference program's last operation writes is the
  function `Cert.Band.result` of the three argument arrays.

  The program builds each of its twelve shifted copies of the sequence by padding the time axis with a zero
  scalar (in front for the rows behind, at the back for the rows ahead) and cutting a window of 4096 rows out of
  the padded array; each table row is cut out of its table, reshaped and broadcast over batch and time.  Read at
  one index (b, t, d) a shifted copy is one row of the sequence padded with sixteen zero rows at either end, a
  broadcast table row is the table's entry at feature d, and the thirteen terms are added in the order the
  specification adds them.
-/
import proofs.«163114_j90013924590022_1_alg».proof.Proof.Spec
import proofs.«163114_j90013924590022_1_alg».proof.Proof.Gen.ReferenceIdeal.Read
import Idealize.ShloMosaic.Lib.ValueIdx
import Idealize.ShloMosaic.Lib.Pipeline.Value
import Idealize.ShloMosaic.Lib.KernelVsHost
import Idealize.ShloMosaic.PureOps.Ideal

noncomputable section

namespace Cert.Band.Ref

open Idealize.ShloMosaic Idealize.ShloMosaic.ValueIdx

/-! ## A sequence padded along the time axis, read at an index -/

/-- The sequence padded with `lo ≤ 16` rows in front and `hi` rows behind on the time axis, every padding entry
    zero, read at row `r` of the padded array: it is row `s` of the sequence padded with sixteen zero rows at either
    end, where `s + lo = r + 16`.  Row `r` lies inside the operand exactly when `lo ≤ r` and `r - lo < 4096`, which
    is `16 ≤ s` and `s < 4112`; there both sides are the sequence's row `r - lo`, elsewhere both are zero. -/
theorem pad_time_eq_padRow {n : ℕ} (lo hi : ℕ) (hlo : lo ≤ 16) (x : SP.Idx → EReal) {u : Shape} (v : u.Idx → EReal)
    (h : SP.Pads (![0, lo, 0] : Fin 3 → ℕ) ![0, hi, 0] ![0, 0, 0] ⟨3, ![16, n, 512]⟩) (hu : 0 < u.numel)
    (hv : v (Shape.Idx.first hu) = 0) (j : (⟨3, ![16, n, 512]⟩ : Shape).Idx) (s : ℕ)
    (hs : s + lo = (j 1).val + 16) :
    pad ⟨3, ![16, n, 512]⟩ ![0, lo, 0] ![0, hi, 0] ![0, 0, 0] x v h hu j = padRow x (j 0) s (j 2) := by
  by_cases hr : lo ≤ (j 1).val ∧ (j 1).val - lo < 4096
  · refine (pad_apply_of_inside _ _ _ x v h hu j (ix3 (j 0) (⟨(j 1).val - lo, hr.2⟩ : Fin 4096) (j 2))
      (fun a => match a with
        | ⟨0, _⟩ => by show (j 0).val = 0 + (j 0).val * (0 + 1); omega
        | ⟨1, _⟩ => by show (j 1).val = lo + ((j 1).val - lo) * (0 + 1); omega
        | ⟨2, _⟩ => by show (j 2).val = 0 + (j 2).val * (0 + 1); omega)).trans ?_
    exact (padRow_inside x (j 0) s (j 2) (⟨(j 1).val - lo, hr.2⟩ : Fin 4096)
      (by show s = (j 1).val - lo + 16; omega)).symm
  · refine (pad_apply_of_not_inside _ _ _ x v h hu j (1 : Fin 3) (fun hin => hr ?_)).trans ?_
    · have h1 : lo ≤ (j 1).val := hin.1
      have h2 : ((j 1).val - lo) / (0 + 1) < 4096 := hin.2.2
      rw [Nat.zero_add, Nat.div_one] at h2
      exact ⟨h1, h2⟩
    · rw [hv]
      exact (padRow_outside x (j 0) s (j 2) (by omega)).symm

/-! ## The padding value -/

/-- The integer zero converted to a float is the extended real zero. -/
theorem sitofp_zero : (FloatOps.sitofp (F := Ideal) .f32 (0#32 : BitVec 32) : EReal) = 0 := by
  show (((0#32 : BitVec 32).toInt : ℝ) : EReal) = 0
  have e : (0#32 : BitVec 32).toInt = 0 := by decide
  rw [e, Int.cast_zero, EReal.coe_zero]

section
open Cert.ReferenceIdeal Cert.ReferenceIdeal.Read

/-- Each of the twelve pads takes its padding value from its own copy of the converted integer zero. -/
theorem padv0 (i : S_.Idx) : val_main_call0_v0 (F := Ideal) i = 0 := sitofp_zero
theorem padv1 (i : S_.Idx) : val_main_call1_v0 (F := Ideal) i = 0 := sitofp_zero
theorem padv2 (i : S_.Idx) : val_main_call2_v0 (F := Ideal) i = 0 := sitofp_zero
theorem padv3 (i : S_.Idx) : val_main_call3_v0 (F := Ideal) i = 0 := sitofp_zero
theorem padv4 (i : S_.Idx) : val_main_call4_v0 (F := Ideal) i = 0 := sitofp_zero
theorem padv5 (i : S_.Idx) : val_main_call5_v0 (F := Ideal) i = 0 := sitofp_zero
theorem padv6 (i : S_.Idx) : val_main_call6_v0 (F := Ideal) i = 0 := sitofp_zero
theorem padv7 (i : S_.Idx) : val_main_call7_v0 (F := Ideal) i = 0 := sitofp_zero
theorem padv8 (i : S_.Idx) : val_main_call8_v0 (F := Ideal) i = 0 := sitofp_zero
theorem padv9 (i : S_.Idx) : val_main_call9_v0 (F := Ideal) i = 0 := sitofp_zero
theorem padv10 (i : S_.Idx) : val_main_call10_v0 (F := Ideal) i = 0 := sitofp_zero
theorem padv11 (i : S_.Idx) : val_main_call11_v0 (F := Ideal) i = 0 := sitofp_zero

/-! ## The twelve shifted copies

A copy shifted back by `k` rows is the sequence padded with `k` rows in front, cut to its first 4096 rows: its row
`t` is the padded array's row `t`, the sixteen-padded sequence's row `t + 16 - k`.  A copy shifted ahead by `k` rows
is the sequence padded with `k` rows behind, cut from row `k` on: its row `t` is the padded array's row `k + t`,
the sixteen-padded sequence's row `t + 16 + k`. -/

variable (x0 : SP.Idx → EReal) (b : Fin 16) (t : Fin 4096) (d : Fin 512)

theorem back1 : val_main_v1 (F := Ideal) x0 (ix3 b t d) = padRow x0 b (t.val + 15) d := by
  refine (val_main_v1_apply (F := Ideal) x0 _).trans ?_
  unfold val_main_v0
  exact pad_time_eq_padRow 1 0 (by omega) x0 _ _ _ (padv0 _) (idx_main_v1 (ix3 b t d)) (t.val + 15)
    (by show t.val + 15 + 1 = t.val + 16; omega)

theorem back4 : val_main_v9 (F := Ideal) x0 (ix3 b t d) = padRow x0 b (t.val + 12) d := by
  refine (val_main_v9_apply (F := Ideal) x0 _).trans ?_
  unfold val_main_v8
  exact pad_time_eq_padRow 4 0 (by omega) x0 _ _ _ (padv1 _) (idx_main_v9 (ix3 b t d)) (t.val + 12)
    (by show t.val + 12 + 4 = t.val + 16; omega)

theorem back7 : val_main_v17 (F := Ideal) x0 (ix3 b t d) = padRow x0 b (t.val + 9) d := by
  refine (val_main_v17_apply (F := Ideal) x0 _).trans ?_
  unfold val_main_v16
  exact pad_time_eq_padRow 7 0 (by omega) x0 _ _ _ (padv2 _) (idx_main_v17 (ix3 b t d)) (t.val + 9)
    (by show t.val + 9 + 7 = t.val + 16; omega)

theorem back10 : val_main_v25 (F := Ideal) x0 (ix3 b t d) = padRow x0 b (t.val + 6) d := by
  refine (val_main_v25_apply (F := Ideal) x0 _).trans ?_
  unfold val_main_v24
  exact pad_time_eq_padRow 10 0 (by omega) x0 _ _ _ (padv3 _) (idx_main_v25 (ix3 b t d)) (t.val + 6)
    (by show t.val + 6 + 10 = t.val + 16; omega)

theorem back13 : val_main_v33 (F := Ideal) x0 (ix3 b t d) = padRow x0 b (t.val + 3) d := by
  refine (val_main_v33_apply (F := Ideal) x0 _).trans ?_
  unfold val_main_v32
  exact pad_time_eq_padRow 13 0 (by omega) x0 _ _ _ (padv4 _) (idx_main_v33 (ix3 b t d)) (t.val + 3)
    (by show t.val + 3 + 13 = t.val + 16; omega)

theorem back16 : val_main_v41 (F := Ideal) x0 (ix3 b t d) = padRow x0 b (t.val + 0) d := by
  refine (val_main_v41_apply (F := Ideal) x0 _).trans ?_
  unfold val_main_v40
  exact pad_time_eq_padRow 16 0 (by omega) x0 _ _ _ (padv5 _) (idx_main_v41 (ix3 b t d)) (t.val + 0)
    (by show t.val + 0 + 16 = t.val + 16; omega)

theorem ahead1 : val_main_v49 (F := Ideal) x0 (ix3 b t d) = padRow x0 b (t.val + 17) d := by
  refine (val_main_v49_apply (F := Ideal) x0 _).trans ?_
  unfold val_main_v48
  exact pad_time_eq_padRow 0 1 (by omega) x0 _ _ _ (padv6 _) (idx_main_v49 (ix3 b t d)) (t.val + 17)
    (by show t.val + 17 + 0 = 1 + t.val + 16; omega)

theorem ahead4 : val_main_v57 (F := Ideal) x0 (ix3 b t d) = padRow x0 b (t.val + 20) d := by
  refine (val_main_v57_apply (F := Ideal) x0 _).trans ?_
  unfold val_main_v56
  exact pad_time_eq_padRow 0 4 (by omega) x0 _ _ _ (padv7 _) (idx_main_v57 (ix3 b t d)) (t.val + 20)
    (by show t.val + 20 + 0 = 4 + t.val + 16; omega)

theorem ahead7 : val_main_v65 (F := Ideal) x0 (ix3 b t d) = padRow x0 b (t.val + 23) d := by
  refine (val_main_v65_apply (F := Ideal) x0 _).trans ?_
  unfold val_main_v64
  exact pad_time_eq_padRow 0 7 (by omega) x0 _ _ _ (padv8 _) (idx_main_v65 (ix3 b t d)) (t.val + 23)
    (by show t.val + 23 + 0 = 7 + t.val + 16; omega)

theorem ahead10 : val_main_v73 (F := Ideal) x0 (ix3 b t d) = padRow x0 b (t.val + 26) d := by
  refine (val_main_v73_apply (F := Ideal) x0 _).trans ?_
  unfold val_main_v72
  exact pad_time_eq_padRow 0 10 (by omega) x0 _ _ _ (padv9 _) (idx_main_v73 (ix3 b t d)) (t.val + 26)
    (by show t.val + 26 + 0 = 10 + t.val + 16; omega)

theorem ahead13 : val_main_v81 (F := Ideal) x0 (ix3 b t d) = padRow x0 b (t.val + 29) d := by
  refine (val_main_v81_apply (F := Ideal) x0 _).trans ?_
  unfold val_main_v80
  exact pad_time_eq_padRow 0 13 (by omega) x0 _ _ _ (padv10 _) (idx_main_v81 (ix3 b t d)) (t.val + 29)
    (by show t.val + 29 + 0 = 13 + t.val + 16; omega)

theorem ahead16 : val_main_v89 (F := Ideal) x0 (ix3 b t d) = padRow x0 b (t.val + 32) d := by
  refine (val_main_v89_apply (F := Ideal) x0 _).trans ?_
  unfold val_main_v88
  exact pad_time_eq_padRow 0 16 (by omega) x0 _ _ _ (padv11 _) (idx_main_v89 (ix3 b t d)) (t.val + 32)
    (by show t.val + 32 + 0 = 16 + t.val + 16; omega)

/-! ## The twelve broadcast table rows

A table's row `k` is cut out as a 1 × 512 array, reshaped to 512 entries, and broadcast first to 1 × 1 × 512 and then
over batch and time: at (b, t, d) it is the table's entry (k, d).  The reshape reads its flat position `d % 512`, which
is `d` since `d < 512`. -/

variable (x1 x2 : SM.Idx → EReal)

theorem rowL7 : val_main_v5 (F := Ideal) x1 (ix3 b t d) = x1 (ix2 7 d) := by
  rw [val_main_v5_apply, val_main_v4_apply, val_main_v3_apply, val_main_v2_apply]
  refine congrArg x1 (funext fun a => ?_)
  match a with
  | ⟨0, _⟩ => rfl
  | ⟨1, _⟩ => exact Fin.ext (Nat.mod_eq_of_lt d.isLt)

theorem rowL6 : val_main_v13 (F := Ideal) x1 (ix3 b t d) = x1 (ix2 6 d) := by
  rw [val_main_v13_apply, val_main_v12_apply, val_main_v11_apply, val_main_v10_apply]
  refine congrArg x1 (funext fun a => ?_)
  match a with
  | ⟨0, _⟩ => rfl
  | ⟨1, _⟩ => exact Fin.ext (Nat.mod_eq_of_lt d.isLt)

theorem rowL5 : val_main_v21 (F := Ideal) x1 (ix3 b t d) = x1 (ix2 5 d) := by
  rw [val_main_v21_apply, val_main_v20_apply, val_main_v19_apply, val_main_v18_apply]
  refine congrArg x1 (funext fun a => ?_)
  match a with
  | ⟨0, _⟩ => rfl
  | ⟨1, _⟩ => exact Fin.ext (Nat.mod_eq_of_lt d.isLt)

theorem rowL4 : val_main_v29 (F := Ideal) x1 (ix3 b t d) = x1 (ix2 4 d) := by
  rw [val_main_v29_apply, val_main_v28_apply, val_main_v27_apply, val_main_v26_apply]
  refine congrArg x1 (funext fun a => ?_)
  match a with
  | ⟨0, _⟩ => rfl
  | ⟨1, _⟩ => exact Fin.ext (Nat.mod_eq_of_lt d.isLt)

theorem rowL3 : val_main_v37 (F := Ideal) x1 (ix3 b t d) = x1 (ix2 3 d) := by
  rw [val_main_v37_apply, val_main_v36_apply, val_main_v35_apply, val_main_v34_apply]
  refine congrArg x1 (funext fun a => ?_)
  match a with
  | ⟨0, _⟩ => rfl
  | ⟨1, _⟩ => exact Fin.ext (Nat.mod_eq_of_lt d.isLt)

theorem rowL2 : val_main_v45 (F := Ideal) x1 (ix3 b t d) = x1 (ix2 2 d) := by
  rw [val_main_v45_apply, val_main_v44_apply, val_main_v43_apply, val_main_v42_apply]
  refine congrArg x1 (funext fun a => ?_)
  match a with
  | ⟨0, _⟩ => rfl
  | ⟨1, _⟩ => exact Fin.ext (Nat.mod_eq_of_lt d.isLt)

theorem rowR0 : val_main_v53 (F := Ideal) x2 (ix3 b t d) = x2 (ix2 0 d) := by
  rw [val_main_v53_apply, val_main_v52_apply, val_main_v51_apply, val_main_v50_apply]
  refine congrArg x2 (funext fun a => ?_)
  match a with
  | ⟨0, _⟩ => rfl
  | ⟨1, _⟩ => exact Fin.ext (Nat.mod_eq_of_lt d.isLt)

theorem rowR1 : val_main_v61 (F := Ideal) x2 (ix3 b t d) = x2 (ix2 1 d) := by
  rw [val_main_v61_apply, val_main_v60_apply, val_main_v59_apply, val_main_v58_apply]
  refine congrArg x2 (funext fun a => ?_)
  match a with
  | ⟨0, _⟩ => rfl
  | ⟨1, _⟩ => exact Fin.ext (Nat.mod_eq_of_lt d.isLt)

theorem rowR2 : val_main_v69 (F := Ideal) x2 (ix3 b t d) = x2 (ix2 2 d) := by
  rw [val_main_v69_apply, val_main_v68_apply, val_main_v67_apply, val_main_v66_apply]
  refine congrArg x2 (funext fun a => ?_)
  match a with
  | ⟨0, _⟩ => rfl
  | ⟨1, _⟩ => exact Fin.ext (Nat.mod_eq_of_lt d.isLt)

theorem rowR3 : val_main_v77 (F := Ideal) x2 (ix3 b t d) = x2 (ix2 3 d) := by
  rw [val_main_v77_apply, val_main_v76_apply, val_main_v75_apply, val_main_v74_apply]
  refine congrArg x2 (funext fun a => ?_)
  match a with
  | ⟨0, _⟩ => rfl
  | ⟨1, _⟩ => exact Fin.ext (Nat.mod_eq_of_lt d.isLt)

theorem rowR4 : val_main_v85 (F := Ideal) x2 (ix3 b t d) = x2 (ix2 4 d) := by
  rw [val_main_v85_apply, val_main_v84_apply, val_main_v83_apply, val_main_v82_apply]
  refine congrArg x2 (funext fun a => ?_)
  match a with
  | ⟨0, _⟩ => rfl
  | ⟨1, _⟩ => exact Fin.ext (Nat.mod_eq_of_lt d.isLt)

theorem rowR5 : val_main_v93 (F := Ideal) x2 (ix3 b t d) = x2 (ix2 5 d) := by
  rw [val_main_v93_apply, val_main_v92_apply, val_main_v91_apply, val_main_v90_apply]
  refine congrArg x2 (funext fun a => ?_)
  match a with
  | ⟨0, _⟩ => rfl
  | ⟨1, _⟩ => exact Fin.ext (Nat.mod_eq_of_lt d.isLt)

/-! ## The thirteen terms, added in order -/

/-- At (b, t, d) the last operation's value is the centre row plus the twelve products, each shifted copy a row of the
    sixteen-padded sequence and each broadcast row a table entry, summed left to right as `bandSum` sums them. -/
theorem ref_at : val_main_v95 (F := Ideal) x0 x1 x2 (ix3 b t d)
    = bandSum (fun s => padRow x0 b s d) (fun k => x1 (ix2 k d)) (fun k => x2 (ix2 k d)) t.val := by
  rw [val_main_v95_apply, val_main_v94_apply, val_main_v87_apply, val_main_v86_apply, val_main_v79_apply,
    val_main_v78_apply, val_main_v71_apply, val_main_v70_apply, val_main_v63_apply, val_main_v62_apply,
    val_main_v55_apply, val_main_v54_apply, val_main_v47_apply, val_main_v46_apply, val_main_v39_apply,
    val_main_v38_apply, val_main_v31_apply, val_main_v30_apply, val_main_v23_apply, val_main_v22_apply,
    val_main_v15_apply, val_main_v14_apply, val_main_v7_apply, val_main_v6_apply]
  rw [back1, back4, back7, back10, back13, back16, ahead1, ahead4, ahead7, ahead10, ahead13, ahead16,
    rowL7, rowL6, rowL5, rowL4, rowL3, rowL2, rowR0, rowR1, rowR2, rowR3, rowR4, rowR5]
  rw [← padRow_inside x0 b (t.val + 16) d t rfl]
  rfl

end

/-- The value the reference program's last operation writes is the banded sum of the three argument arrays. -/
theorem ref_result (x0 : (⟨Cert.ReferenceIdeal.S16x4096x512, .f32⟩ : BufTy).Contents (Elt Ideal))
    (x1 x2 : (⟨Cert.ReferenceIdeal.S8x512, .f32⟩ : BufTy).Contents (Elt Ideal)) :
    Cert.ReferenceIdeal.Read.val_main_v95 (F := Ideal) x0 x1 x2 = Cert.Band.result x0 x1 x2 := by
  funext i
  obtain ⟨b, t, d, rfl⟩ : ∃ b t d, i = ix3 b t d := ⟨i 0, i 1, i 2, eq_ix3 i⟩
  exact ref_at x0 b t d x1 x2

end Cert.Band.Ref

end
-- ==== Proof.KernelPieces.lean ====
/-
  What one grid point of the kernel leaves in its output block, as a pure term of what the body loads.

  The kernel streams the time-padded sequence through a ring of two slots of its scratch buffer: the copy of the
  point's window (4 batches × 288 rows × 512 features) into slot `t mod 2` was started one point earlier (at the first
  point, by the point itself) and is waited for before the body reads the slot.  So whatever the point's place in that
  schedule — first point, a middle point, last point — the slot it loads holds the window of the padded sequence that
  belongs to the point, and the block it stores is ONE term, `pointValue`: the thirteen-term sum of the body over
  that slot's contents and the twelve table rows it loads.  This module states that term, proves that each of the
  three schedule cases stores it, and reads the loads back: the slot is the window of the operand (`slot_cast`,
  `block_apply`), a loaded table row is the table's row (`row_apply`).
-/
import proofs.«163114_j90013924590022_1_alg».proof.Proof.Gen.KernelIdeal.Frame
import Idealize.ShloMosaic.Lib.Pipeline.Value
import Idealize.ShloMosaic.Lib.ValueIdx
import Idealize.ShloMosaic.Lib.WholeRead

set_option maxRecDepth 16384

noncomputable section

namespace Cert.Band.Kernel

open Cert.KernelIdeal Cert.KernelIdeal.Gen Idealize.ShloMosaic Idealize.ShloMosaic.TcCoe Idealize.ShloMosaic.Tactic Idealize.SL.Sem
open Idealize.ShloMosaic.ValueIdx

variable {F : FTy → Type} [FloatOps F]

theorem hz : (![0, 0, 0] : Fin 3 → Nat) = fun _ => 0 := funext fun a => by fin_cases a <;> rfl

/-- What the body loads from the slot of the scratch ring that holds the point's window: slot `t mod 2` of the scratch
    buffer, after the copy of window `t` of the operand has landed in it whole. -/
def slotLoad (c : Dev nD) (t : Fin cfg0.N) (fh0 : HbBuf0 (F := F) c hbM0_0) : Vec F S1x4x288x512 .f32 :=
  View.readAt (Elt F) scM0_0.view (Rect.unit (s := S2x4x288x512) (k0_off6 (grid0.coords t)) S1x4x288x512.size (k0_off6_inb (grid0.coords t))).toLoadRect
    ((rslot0_0 (Ring.sl 2 t.val)).view.writes (Elt F) (rslot0_0 (Ring.sl 2 t.val)).view.junk
      [⟨Rect.whole S4x288x512, ReadAs.same.apply ((srcB0_0 (Ring.bk 64 t.val)).view.read (Elt F) fh0)⟩])

/-- Row `k` of a table held whole in its staging buffer, as the body loads it: a 1 × 512 vector. -/
abbrev rowLoad (a : Memref sig .tc .vmem S8x512 .f32) (ha : a.IsWhole) (x : Vec F S8x512 .f32) (k : ℕ)
    (inb : ∀ i, (![k, 0] : Fin 2 → Nat) i + S1x512.size i ≤ S8x512.size i) : Vec F S1x512 .f32 :=
  View.readAt (Elt F) a.view (Rect.unit (s := S8x512) ![k, 0] S1x512.size inb).toLoadRect (ha.unread x)

/-- The block a point stores: the body's sum over the slot it loads, the left table's rows 7, 6, 5, 4, 3, 2 and the
    right table's rows 0 … 5. -/
def pointValue (c : Dev nD) (t : Fin cfg0.N) (arg3 : Memref sig .tc .vmem S8x512 .f32) (harg3 : arg3.IsWhole)
    (arg4 : Memref sig .tc .vmem S8x512 .f32) (harg4 : arg4.IsWhole) (x0 x1 : Vec F S8x512 .f32)
    (fh0 : HbBuf0 (F := F) c hbM0_0) : Vec F S4x256x512 .f32 :=
  k0_pay5 (k0_pay1 (slotLoad c t fh0))
    (k0_pay2 (slotLoad c t fh0) (rowLoad arg3 harg3 x0 7 inb_S8x512_S1x512_7_0) (rowLoad arg3 harg3 x0 6 inb_S8x512_S1x512_6_0)
      (rowLoad arg3 harg3 x0 5 inb_S8x512_S1x512_5_0) (rowLoad arg3 harg3 x0 4 inb_S8x512_S1x512_4_0) (rowLoad arg3 harg3 x0 3 inb_S8x512_S1x512_3_0))
    (k0_pay3 (slotLoad c t fh0)) (k0_pay4 (rowLoad arg3 harg3 x0 2 inb_S8x512_S1x512_2_0))
    (rowLoad arg4 harg4 x1 0 inb_S8x512_S1x512_0_0) (rowLoad arg4 harg4 x1 1 inb_S8x512_S1x512_1_0) (rowLoad arg4 harg4 x1 2 inb_S8x512_S1x512_2_0)
    (rowLoad arg4 harg4 x1 3 inb_S8x512_S1x512_3_0) (rowLoad arg4 harg4 x1 4 inb_S8x512_S1x512_4_0) (rowLoad arg4 harg4 x1 5 inb_S8x512_S1x512_5_0)

/-! ## Each schedule case stores that block

The first point starts its own copy and the next point's; a middle point waits for the copy the point before started
and starts the next; the last point only waits.  In each case the one store of the body covers the output block, and
its payload, read back, is `pointValue`. -/

/-- The first point. -/
theorem pieceA (c : Dev nD) (t : Fin cfg0.N) (arg3 : Memref sig .tc .vmem S8x512 .f32) (harg3 : arg3.IsWhole) (arg4 : Memref sig .tc .vmem S8x512 .f32) (harg4 : arg4.IsWhole) (arg5 : Memref sig .tc .vmem S4x256x512 .f32) (harg5 : arg5.IsWhole) (hc0 : cond0_0 (grid0.coords t)) (hc1 : cond0_1 (grid0.coords t))
    (x0 : Vec F S8x512 .f32) (x1 : Vec F S8x512 .f32) (fh0 : HbBuf0 (F := F) c hbM0_0) :
    out0_A_2 c t arg3 harg3 arg4 harg4 arg5 harg5 hc0 hc1 x0 x1 fh0 = pointValue c t arg3 harg3 arg4 harg4 x0 x1 fh0 := by
  unfold out0_A_2
  rw [View.read_writes_eq_canon _ _ _ (cover0_A_2 c t arg3 harg3 arg4 harg4 arg5 harg5 hc0 hc1 x0 x1 fh0)]
  unfold kernelRun0_A
  dsimp only
  sl_unfold_words
  rw [View.canon_unit_zero hz]
  rfl

/-- A middle point. -/
theorem pieceB (c : Dev nD) (t : Fin cfg0.N) (arg3 : Memref sig .tc .vmem S8x512 .f32) (harg3 : arg3.IsWhole) (arg4 : Memref sig .tc .vmem S8x512 .f32) (harg4 : arg4.IsWhole) (arg5 : Memref sig .tc .vmem S4x256x512 .f32) (harg5 : arg5.IsWhole) (hc0 : ¬cond0_0 (grid0.coords t)) (hc1 : cond0_1 (grid0.coords t))
    (x0 : Vec F S8x512 .f32) (x1 : Vec F S8x512 .f32) (fh0 : HbBuf0 (F := F) c hbM0_0) :
    out0_B_2 c t arg3 harg3 arg4 harg4 arg5 harg5 hc0 hc1 x0 x1 fh0 = pointValue c t arg3 harg3 arg4 harg4 x0 x1 fh0 := by
  unfold out0_B_2
  rw [View.read_writes_eq_canon _ _ _ (cover0_B_2 c t arg3 harg3 arg4 harg4 arg5 harg5 hc0 hc1 x0 x1 fh0)]
  unfold kernelRun0_B
  dsimp only
  sl_unfold_words
  rw [View.canon_unit_zero hz]
  rfl

/-- The last point. -/
theorem pieceC (c : Dev nD) (t : Fin cfg0.N) (arg3 : Memref sig .tc .vmem S8x512 .f32) (harg3 : arg3.IsWhole) (arg4 : Memref sig .tc .vmem S8x512 .f32) (harg4 : arg4.IsWhole) (arg5 : Memref sig .tc .vmem S4x256x512 .f32) (harg5 : arg5.IsWhole) (hc0 : ¬cond0_0 (grid0.coords t)) (hc1 : ¬cond0_1 (grid0.coords t))
    (x0 : Vec F S8x512 .f32) (x1 : Vec F S8x512 .f32) (fh0 : HbBuf0 (F := F) c hbM0_0) :
    out0_C_2 c t arg3 harg3 arg4 harg4 arg5 harg5 hc0 hc1 x0 x1 fh0 = pointValue c t arg3 harg3 arg4 harg4 x0 x1 fh0 := by
  unfold out0_C_2
  rw [View.read_writes_eq_canon _ _ _ (cover0_C_2 c t arg3 harg3 arg4 harg4 arg5 harg5 hc0 hc1 x0 x1 fh0)]
  unfold kernelRun0_C
  dsimp only
  sl_unfold_words
  rw [View.canon_unit_zero hz]
  rfl

/-! ## The loads read back -/

/-- The slot's contents, cast to 4 × 288 × 512, are the window of the operand that the copy read: the slot is one
    leading index of the scratch buffer, the copy wrote it whole, and nothing else was written under it. -/
theorem slot_cast (c : Dev nD) (t : Fin cfg0.N) (fh0 : HbBuf0 (F := F) c hbM0_0) :
    k0_pay1 (slotLoad c t fh0) = (srcB0_0 (Ring.bk 64 t.val)).view.read (Elt F) fh0 := by
  unfold k0_pay1 slotLoad
  show shapeCast S4x288x512 (View.readAt (Elt F) scM0_0.view (Rect.unit (s := S2x4x288x512) (k0_off6 (grid0.coords t)) S1x4x288x512.size (k0_off6_inb (grid0.coords t))).toLoadRect _) shapeCasts_S1x4x288x512_S4x288x512 = _
  refine Eq.trans (congrArg (fun v => shapeCast S4x288x512 v shapeCasts_S1x4x288x512_S4x288x512)
    (View.readAt_unit_congr scM0_0.view (coff0_0_10 t) (k0_off6_inb (grid0.coords t)) (inb_slot0_0 (Ring.sl 2 t.val)) _)) ?_
  exact (Memref.read_squeeze_slice scM0_0 _ (fun _ => rfl) squeezes_S1x4x288x512_S4x288x512 shapeCasts_S1x4x288x512_S4x288x512 _).symm.trans
    (View.read_writes_whole (rslot0_0 (Ring.sl 2 t.val)).view _ _)

/-- Window `n` of the operand starts at batch `4 (n / 16)` and row `256 (n mod 16)`: its entry (b, s, d) is the
    operand's entry there. -/
theorem block_apply (c : Dev nD) (n : Fin 64) (fh0 : HbBuf0 (F := F) c hbM0_0) (b : Fin 4) (s : Fin 288) (d : Fin 512) :
    (srcB0_0 n).view.read (Elt F) fh0 (ix3 b s d)
      = (fh0 : S16x4128x512.Idx → Elt F .f32) (ix3 ⟨4 * (n.val / 16) + b.val, by have := n.isLt; have := b.isLt; omega⟩
          ⟨256 * (n.val % 16) + s.val, by have := n.isLt; have := s.isLt; omega⟩ d) := by
  show (fh0 : S16x4128x512.Idx → Elt F .f32) ((srcB0_0 n).view.emb (ix3 b s d)) = _
  refine congrArg _ (funext fun a => Fin.ext ?_)
  match a with
  | ⟨0, _⟩ => show 4 * (n.val / 16) + 1 * b.val = 4 * (n.val / 16) + b.val; omega
  | ⟨1, _⟩ => show 256 * (n.val % 16) + 1 * s.val = 256 * (n.val % 16) + s.val; omega
  | ⟨2, _⟩ => show 0 + 1 * d.val = d.val; omega

/-- A loaded table row is the table's row. -/
theorem row_apply (a : Memref sig .tc .vmem S8x512 .f32) (ha : a.IsWhole) (x : Vec F S8x512 .f32) (k : Fin 8)
    (inb : ∀ i, (![k.val, 0] : Fin 2 → Nat) i + S1x512.size i ≤ S8x512.size i) (d : Fin 512) :
    rowLoad a ha x k.val inb (ix2 0 d) = x (ix2 k d) := by
  refine (ha.readAt_unread x _ _).trans (congrArg x (funext fun i => Fin.ext ?_))
  match i with
  | ⟨0, _⟩ => show k.val + 1 * 0 = k.val; omega
  | ⟨1, _⟩ => show 0 + 1 * d.val = d.val; omega

end Cert.Band.Kernel

end
-- ==== Proof.KernelOperand.lean ====
/-
  The operand the kernel streams is the time-padded sequence.

  Before the kernel is launched the host pads the sequence with sixteen zero rows at either end of the time axis; the
  kernel never sees the sequence itself, only this padded array, which it copies window by window.  Here the array the
  launch finds is identified (the host's two operations read back), and read at an index: entry (B, s, d) is
  `padRow` of the specification — the sequence's row `s - 16` where there is one, zero otherwise.
-/
import proofs.«163114_j90013924590022_1_alg».proof.Proof.Spec
import proofs.«163114_j90013924590022_1_alg».proof.Proof.Gen.KernelIdeal.Frame
import Idealize.ShloMosaic.Lib.ValueIdx
import Idealize.ShloMosaic.Lib.StableHlo.Run
import Idealize.ShloMosaic.Lib.KernelVsHost

set_option maxRecDepth 16384

noncomputable section

namespace Cert.Band.Kernel

open Cert.KernelIdeal Cert.KernelIdeal.Gen Idealize.ShloMosaic Idealize.ShloMosaic.TcCoe Idealize.SL.Sem Idealize.ShloMosaic.StableHlo
open Idealize.ShloMosaic.ValueIdx

variable (m : (ℓ : Loc nD τ sig) → Buf (Elt Ideal) ℓ)

/-- The sequence with sixteen rows of the host's padding value (the integer zero converted to a float) put at either
    end of the time axis. -/
def padded (P : S16x4096x512.Idx → EReal) : S16x4128x512.Idx → EReal :=
  pad S16x4128x512 ![0, 16, 0] ![0, 16, 0] ![0, 0, 0] P (sitofp (F := Ideal) .f32 (constantI S_ 32 0#32))
    pads_S16x4096x512_S16x4128x512_000_16160_000 h_S_

/-- What the launch finds in the operand's buffer: the host's constant, its conversion and its pad, of the sequence as
    launched. -/
theorem operand_eq (c : Dev nD) :
    (V m c main_v0 : S16x4128x512.Idx → EReal) = padded (m ((c : Thread nD τ).loc main_arg0)) := by
  unfold padded
  dsimp only [V]
  simp only [hostOps0, hostOps0_1, List.flatten_cons, List.flatten_nil, List.append_nil, List.cons_append, List.nil_append]
  after_results
  rfl

/-- The padded array at (B, s, d): the specification's padded row. -/
theorem padded_apply (P : S16x4096x512.Idx → EReal) (B : Fin 16) (s : Fin 4128) (d : Fin 512) :
    padded P (ix3 B s d) = Cert.Band.padRow P B s.val d := by
  unfold padded
  by_cases h : 16 ≤ s.val ∧ s.val < 4112
  · have hs : s.val - 16 < 4096 := by omega
    rw [Cert.Band.padRow_inside P B s.val d ⟨s.val - 16, hs⟩ (by show s.val = s.val - 16 + 16; omega)]
    exact pad_apply_of_inside _ _ _ P _ pads_S16x4096x512_S16x4128x512_000_16160_000 h_S_ (ix3 B s d) (ix3 B ⟨s.val - 16, hs⟩ d)
      (fun a => match a with
        | ⟨0, _⟩ => by show B.val = 0 + B.val * (0 + 1); omega
        | ⟨1, _⟩ => by show s.val = 16 + (s.val - 16) * (0 + 1); omega
        | ⟨2, _⟩ => by show d.val = 0 + d.val * (0 + 1); omega)
  · rw [Cert.Band.padRow_outside P B s.val d h]
    refine (pad_apply_of_not_inside _ _ _ P _ pads_S16x4096x512_S16x4128x512_000_16160_000 h_S_ (ix3 B s d) (1 : Fin 3) ?_).trans ?_
    · show ¬(16 ≤ s.val ∧ (s.val - 16) % (0 + 1) = 0 ∧ (s.val - 16) / (0 + 1) < 4096)
      rintro ⟨h1, -, h3⟩
      rw [Nat.zero_add, Nat.div_one] at h3
      exact h ⟨h1, by omega⟩
    · show (((0#32 : BitVec 32).toInt : ℝ) : EReal) = 0
      simp

end Cert.Band.Kernel

end
-- ==== Proof.KernelPayload.lean ====
/-
  The kernel body's arithmetic read at one index.

  At a grid point the body holds a slab of 288 rows of the time-padded sequence (per batch entry and feature) and, for
  each of the 256 rows r it writes, adds thirteen terms: the slab's row r + 16, then six rows behind it (r + 15, r + 12,
  r + 9, r + 6, r + 3, r + 0) and six rows ahead (r + 17, r + 20, r + 23, r + 26, r + 29, r + 32), each of the twelve
  multiplied by one row of a table, broadcast over batch and time.  Read at the index (b, r, d):

    * a table row of shape [1, 512], cast to [512], cast to [1, 1, 512] and broadcast to [4, 256, 512], is the row's
      entry d (all three steps keep the feature coordinate and only add or drop unit axes);
    * the slice of the slab at row offset o is the slab's entry (b, r + o, d).

  So if the slab's row r + k is `row (T + k)` for every k ≤ 32 and the twelve table rows read `lf 7 … lf 2`,
  `rf 0 … rf 5` at feature d, the body's value is the thirteen-term sum `bandSum row lf rf T`, term for term and in
  the same order of addition: no law of the extended reals is used.
-/
import proofs.«163114_j90013924590022_1_alg».proof.Proof.Spec
import proofs.«163114_j90013924590022_1_alg».proof.Proof.Gen.KernelIdeal.Skeleton
import Idealize.ShloMosaic.Lib.ValueIdx
import Idealize.ShloMosaic.Lib.Pipeline.Value
import Idealize.ShloMosaic.PureOps.Ideal

noncomputable section

namespace Cert.Band.Kernel

open Cert.KernelIdeal Cert.KernelIdeal.Gen Idealize.ShloMosaic Idealize.ShloMosaic.ValueIdx

/-- A table row [1, 512] cast to [512], cast to [1, 1, 512] and broadcast to [4, 256, 512], read at (b, r, d), is the
    row's entry d: the broadcast reads coordinate 0 on the two unit axes and d on the last, and each cast keeps the
    row-major position d. -/
theorem table_apply (l : Vec Ideal S1x512 .f32) (h1 : S1x512.ShapeCasts S512) (h2 : S512.ShapeCasts S1x1x512)
    (h3 : S1x1x512.Broadcasts S4x256x512) (b : Fin 4) (r : Fin 256) (d : Fin 512) :
    broadcastTo S4x256x512 (shapeCast S1x1x512 (shapeCast S512 l h1) h2) h3 (ix3 b r d) = l (ix2 0 d) := by
  refine (broadcastTo_apply _ h3 (ix3 b r d) (ix3 0 0 d) (fun a => match a with
    | ⟨0, _⟩ => rfl
    | ⟨1, _⟩ => rfl
    | ⟨2, _⟩ => rfl)).trans ?_
  refine (shapeCast_apply _ h2 (ix3 0 0 d) (ix1 d) ?_).trans ?_
  · rw [Shape.rowMajor_val_one, Shape.rowMajor_val_three]
    show d.val = ((0 : Fin 1).val * 1 + (0 : Fin 1).val) * 512 + d.val
    have e0 : ((0 : Fin 1)).val = 0 := rfl
    omega
  refine shapeCast_apply l h1 (ix1 d) (ix2 0 d) ?_
  rw [Shape.rowMajor_val_two, Shape.rowMajor_val_one]
  show (0 : Fin 1).val * 512 + d.val = d.val
  have e0 : ((0 : Fin 1)).val = 0 := rfl
  omega

/-- The slice of the slab at row offset `o`, read at (b, r, d), is the slab's entry (b, r + o, d). -/
theorem slice_apply (blk : FVec Ideal S4x288x512 .f32) (o : ℕ) (h : S4x288x512.Slices ![0, o, 0] S4x256x512)
    (b : Fin 4) (r : Fin 256) (d : Fin 512) (ho : r.val + o < 288) :
    extractStridedSlice S4x256x512 ![0, o, 0] blk h (ix3 b r d) = blk (ix3 b ⟨r.val + o, ho⟩ d) :=
  extractStridedSlice_apply ![0, o, 0] blk h (ix3 b r d) (ix3 b ⟨r.val + o, ho⟩ d) (fun a => match a with
    | ⟨0, _⟩ => by show b.val = 0 + b.val; omega
    | ⟨1, _⟩ => by show r.val + o = o + r.val; omega
    | ⟨2, _⟩ => by show d.val = 0 + d.val; omega)

/-- The body's value at (b, r, d) is the thirteen-term sum over the slab's rows and the tables' rows. -/
theorem pay_apply (v34 : Vec Ideal S1x4x288x512 .f32) (l7 l6 l5 l4 l3 l2 r0 r1 r2 r3 r4 r5 : Vec Ideal S1x512 .f32)
    (b : Fin 4) (r : Fin 256) (d : Fin 512) (row : ℕ → EReal) (T : ℕ) (lf rf : Fin 8 → EReal)
    (hrow : ∀ (k : ℕ) (hk : k ≤ 32),
      k0_pay1 (F := Ideal) v34 (ix3 b ⟨r.val + k, by have := r.isLt; omega⟩ d) = row (T + k))
    (h7 : l7 (ix2 0 d) = lf 7) (h6 : l6 (ix2 0 d) = lf 6) (h5 : l5 (ix2 0 d) = lf 5) (h4 : l4 (ix2 0 d) = lf 4)
    (h3 : l3 (ix2 0 d) = lf 3) (h2 : l2 (ix2 0 d) = lf 2)
    (g0 : r0 (ix2 0 d) = rf 0) (g1 : r1 (ix2 0 d) = rf 1) (g2 : r2 (ix2 0 d) = rf 2) (g3 : r3 (ix2 0 d) = rf 3)
    (g4 : r4 (ix2 0 d) = rf 4) (g5 : r5 (ix2 0 d) = rf 5) :
    k0_pay5 (F := Ideal) (k0_pay1 v34) (k0_pay2 v34 l7 l6 l5 l4 l3) (k0_pay3 v34) (k0_pay4 l2) r0 r1 r2 r3 r4 r5
        (ix3 b r d)
      = Cert.Band.bandSum row lf rf T := by
  have hr := r.isLt
  unfold k0_pay5 k0_pay2 k0_pay3 k0_pay4 Cert.Band.bandSum
  generalize k0_pay1 (F := Ideal) v34 = blk at hrow ⊢
  -- the slab's thirteen slices at (b, r, d)
  have s16 := (slice_apply blk 16 slices_S4x288x512_o0_16_0_S4x256x512 b r d (by omega)).trans (hrow 16 (by omega))
  have s15 := (slice_apply blk 15 slices_S4x288x512_o0_15_0_S4x256x512 b r d (by omega)).trans (hrow 15 (by omega))
  have s12 := (slice_apply blk 12 slices_S4x288x512_o0_12_0_S4x256x512 b r d (by omega)).trans (hrow 12 (by omega))
  have s9 := (slice_apply blk 9 slices_S4x288x512_o0_9_0_S4x256x512 b r d (by omega)).trans (hrow 9 (by omega))
  have s6 := (slice_apply blk 6 slices_S4x288x512_o0_6_0_S4x256x512 b r d (by omega)).trans (hrow 6 (by omega))
  have s3 := (slice_apply blk 3 slices_S4x288x512_o0_3_0_S4x256x512 b r d (by omega)).trans (hrow 3 (by omega))
  have s0 := (slice_apply blk 0 slices_S4x288x512_o0_0_0_S4x256x512 b r d (by omega)).trans (hrow 0 (by omega))
  have s17 := (slice_apply blk 17 slices_S4x288x512_o0_17_0_S4x256x512 b r d (by omega)).trans (hrow 17 (by omega))
  have s20 := (slice_apply blk 20 slices_S4x288x512_o0_20_0_S4x256x512 b r d (by omega)).trans (hrow 20 (by omega))
  have s23 := (slice_apply blk 23 slices_S4x288x512_o0_23_0_S4x256x512 b r d (by omega)).trans (hrow 23 (by omega))
  have s26 := (slice_apply blk 26 slices_S4x288x512_o0_26_0_S4x256x512 b r d (by omega)).trans (hrow 26 (by omega))
  have s29 := (slice_apply blk 29 slices_S4x288x512_o0_29_0_S4x256x512 b r d (by omega)).trans (hrow 29 (by omega))
  have s32 := (slice_apply blk 32 slices_S4x288x512_o0_32_0_S4x256x512 b r d (by omega)).trans (hrow 32 (by omega))
  -- the twelve broadcast table rows at (b, r, d)
  have t7 := (table_apply l7 shapeCasts_S1x512_S512 shapeCasts_S512_S1x1x512 broadcasts_S1x1x512_S4x256x512 b r d).trans h7
  have t6 := (table_apply l6 shapeCasts_S1x512_S512 shapeCasts_S512_S1x1x512 broadcasts_S1x1x512_S4x256x512 b r d).trans h6
  have t5 := (table_apply l5 shapeCasts_S1x512_S512 shapeCasts_S512_S1x1x512 broadcasts_S1x1x512_S4x256x512 b r d).trans h5
  have t4 := (table_apply l4 shapeCasts_S1x512_S512 shapeCasts_S512_S1x1x512 broadcasts_S1x1x512_S4x256x512 b r d).trans h4
  have t3 := (table_apply l3 shapeCasts_S1x512_S512 shapeCasts_S512_S1x1x512 broadcasts_S1x1x512_S4x256x512 b r d).trans h3
  have t2 := (table_apply l2 shapeCasts_S1x512_S512 shapeCasts_S512_S1x1x512 broadcasts_S1x1x512_S4x256x512 b r d).trans h2
  have u0 := (table_apply r0 shapeCasts_S1x512_S512 shapeCasts_S512_S1x1x512 broadcasts_S1x1x512_S4x256x512 b r d).trans g0
  have u1 := (table_apply r1 shapeCasts_S1x512_S512 shapeCasts_S512_S1x1x512 broadcasts_S1x1x512_S4x256x512 b r d).trans g1
  have u2 := (table_apply r2 shapeCasts_S1x512_S512 shapeCasts_S512_S1x1x512 broadcasts_S1x1x512_S4x256x512 b r d).trans g2
  have u3 := (table_apply r3 shapeCasts_S1x512_S512 shapeCasts_S512_S1x1x512 broadcasts_S1x1x512_S4x256x512 b r d).trans g3
  have u4 := (table_apply r4 shapeCasts_S1x512_S512 shapeCasts_S512_S1x1x512 broadcasts_S1x1x512_S4x256x512 b r d).trans g4
  have u5 := (table_apply r5 shapeCasts_S1x512_S512 shapeCasts_S512_S1x1x512 broadcasts_S1x1x512_S4x256x512 b r d).trans g5
  simp only [addf_apply, mulf_apply]
  rw [s16, s15, s12, s9, s6, s3, s0, s17, s20, s23, s26, s29, s32, t7, t6, t5, t4, t3, t2, u0, u1, u2, u3, u4, u5]

end Cert.Band.Kernel

end
-- ==== Proof.KernelArray.lean ====
/-
  From what each grid point stores to the whole result array.

  Point `t` of the 4 × 16 grid (batch group `t / 16`, time tile `t mod 16`) stores the block of 4 batches × 256 rows ×
  512 features at batch `4 (t / 16)` and row `256 (t mod 16)`.  Its value at (b, r, d) is the body's thirteen-term sum
  over rows `r + 0 … r + 32` of the slot it loads; that slot is window `t` of the padded sequence, whose row `s` is row
  `256 (t mod 16) + s` of the padded sequence at batch `4 (t / 16) + b`.  So the stored value is the specification's
  `result` at the array index the block puts (b, r, d) at; the 64 blocks tile the array, hence the array ends at
  `result` of the three argument arrays.
-/
import proofs.«163114_j90013924590022_1_alg».proof.Proof.Spec
import proofs.«163114_j90013924590022_1_alg».proof.Proof.KernelPieces
import proofs.«163114_j90013924590022_1_alg».proof.Proof.KernelOperand
import proofs.«163114_j90013924590022_1_alg».proof.Proof.KernelPayload
import proofs.«163114_j90013924590022_1_alg».proof.Proof.Gen.KernelIdeal.Value
import Idealize.ShloMosaic.Lib.Pipeline.Value
import Idealize.ShloMosaic.Lib.ValueIdx

set_option maxRecDepth 16384

noncomputable section

namespace Cert.Band.Kernel

open Cert.KernelIdeal Cert.KernelIdeal.Gen Idealize.ShloMosaic Idealize.ShloMosaic.TcCoe Idealize.SL.Sem
open Idealize.ShloMosaic.Pipeline (Dat)
open Idealize.ShloMosaic.ValueIdx

variable (m : (ℓ : Loc nD τ sig) → Buf (Elt Ideal) ℓ) (ρ : Dev nD → PrngReg)

/-- The three argument arrays as launched. -/
abbrev seqArg (c : Dev nD) : S16x4096x512.Idx → EReal := m ((c : Thread nD τ).loc main_arg0)
abbrev leftArg (c : Dev nD) : S8x512.Idx → EReal := m ((c : Thread nD τ).loc main_arg1)
abbrev rightArg (c : Dev nD) : S8x512.Idx → EReal := m ((c : Thread nD τ).loc main_arg2)

theorem N64 : cfg0.N = 64 := N_0

/-- The printed index maps over the grid: the output block of point `t` is block (t / 16, t mod 16, 0); the two
    tables' windows are the whole tables at every point. -/
theorem index_facts : ∀ t : Fin cfg0.N, win0_2.index t (0 : Fin 3) = t.val / 16 ∧ win0_2.index t (1 : Fin 3) = t.val % 16
    ∧ win0_2.index t (2 : Fin 3) = 0 ∧ win0_0.index t (0 : Fin 2) = 0 ∧ win0_0.index t (1 : Fin 2) = 0
    ∧ win0_1.index t (0 : Fin 2) = 0 ∧ win0_1.index t (1 : Fin 2) = 0 :=
  (by decide +kernel : ∀ t : Fin grid0.N, _)

/-- Every block of the array is some point's. -/
theorem index_onto : ∀ (q0 : Fin 4) (q1 : Fin 16), ∃ t : Fin cfg0.N, win0_2.index t = ![q0.val, q1.val, 0] :=
  (by decide +kernel : ∀ (q0 : Fin 4) (q1 : Fin 16), ∃ t : Fin grid0.N, win0_2.index t = ![q0.val, q1.val, 0])

/-- The left table's window at any point, read at (k, d), is the table as launched. -/
theorem leftBlock_apply (c : Dev nD) (t : Fin cfg0.N) (k : Fin 8) (d : Fin 512) :
    (iblk m c 0 t : Vec Ideal S8x512 .f32) (ix2 k d) = leftArg m c (ix2 k d) := by
  obtain ⟨-, -, -, e0, e1, -, -⟩ := index_facts t
  show V m c main_arg1 (((cfg0.win 0).blk t).view.emb (ix2 k d)) = _
  rw [V_main_arg1]
  refine congrArg _ (funext fun a => Fin.ext ?_)
  match a with
  | ⟨0, _⟩ => show win0_0.index t (0 : Fin 2) * 8 + 1 * k.val = k.val; omega
  | ⟨1, _⟩ => show win0_0.index t (1 : Fin 2) * 512 + 1 * d.val = d.val; omega

/-- The right table's window likewise. -/
theorem rightBlock_apply (c : Dev nD) (t : Fin cfg0.N) (k : Fin 8) (d : Fin 512) :
    (iblk m c 1 t : Vec Ideal S8x512 .f32) (ix2 k d) = rightArg m c (ix2 k d) := by
  obtain ⟨-, -, -, -, -, e0, e1⟩ := index_facts t
  show V m c main_arg2 (((cfg0.win 1).blk t).view.emb (ix2 k d)) = _
  rw [V_main_arg2]
  refine congrArg _ (funext fun a => Fin.ext ?_)
  match a with
  | ⟨0, _⟩ => show win0_1.index t (0 : Fin 2) * 8 + 1 * k.val = k.val; omega
  | ⟨1, _⟩ => show win0_1.index t (1 : Fin 2) * 512 + 1 * d.val = d.val; omega

/-- Row `s` of the slot point `t` loads, at batch `b` and feature `d`: the padded sequence's row `256 (t mod 16) + s`
    at batch `4 (t / 16) + b`. -/
theorem slotRow_apply (c : Dev nD) (t : Fin cfg0.N) (b : Fin 4) (s : Fin 288) (d : Fin 512) :
    k0_pay1 (F := Ideal) (slotLoad c t (V m c main_v0)) (ix3 b s d)
      = Cert.Band.padRow (seqArg m c) ⟨4 * (t.val / 16) + b.val, by have := t.isLt; have := N64; have := b.isLt; omega⟩
          (256 * (t.val % 16) + s.val) d := by
  have ht : t.val < 64 := lt_of_lt_of_eq t.isLt N64
  have hn : (Ring.bk 64 t.val).val = t.val := Ring.bk_val ht
  rw [slot_cast, block_apply]
  have e := congrFun (operand_eq m c) (ix3 ⟨4 * ((Ring.bk 64 t.val).val / 16) + b.val, by have := b.isLt; omega⟩
    ⟨256 * ((Ring.bk 64 t.val).val % 16) + s.val, by have := s.isLt; omega⟩ d)
  refine e.trans ((padded_apply _ _ _ _).trans ?_)
  show Cert.Band.padRow (seqArg m c) ⟨4 * ((Ring.bk 64 t.val).val / 16) + b.val, _⟩ (256 * ((Ring.bk 64 t.val).val % 16) + s.val) d = _
  congr 1
  · exact Fin.ext (by show 4 * ((Ring.bk 64 t.val).val / 16) + b.val = 4 * (t.val / 16) + b.val; rw [hn])
  · rw [hn]

/-- WHAT A POINT STORES, entry by entry: the specification's result at the array index of the entry. -/
theorem pointValue_apply (c : Dev nD) (t : Fin cfg0.N) (j : S4x256x512.Idx) :
    pointValue c t (ms0_0 t) (hs0_0 t) (ms0_1 t) (hs0_1 t) (iblk m c 0 t) (iblk m c 1 t) (V m c main_v0) j
      = Cert.Band.result (seqArg m c) (leftArg m c) (rightArg m c)
          (ix3 ⟨4 * (t.val / 16) + (j 0).val, by have := t.isLt; have := N64; have h : (j 0).val < 4 := (j 0).isLt; omega⟩
            ⟨256 * (t.val % 16) + (j 1).val, by have h : (j 1).val < 256 := (j 1).isLt; omega⟩ (j 2)) := by
  obtain ⟨b, r, d, rfl⟩ : ∃ (b : Fin 4) (r : Fin 256) (d : Fin 512), j = ix3 b r d := ⟨j 0, j 1, j 2, eq_ix3 j⟩
  unfold pointValue
  refine (pay_apply _ _ _ _ _ _ _ _ _ _ _ _ _ b r d
    (fun s => Cert.Band.padRow (seqArg m c) ⟨4 * (t.val / 16) + b.val, by have := t.isLt; have := N64; have := b.isLt; omega⟩ s d)
    (256 * (t.val % 16) + r.val) (fun k => leftArg m c (ix2 k d)) (fun k => rightArg m c (ix2 k d))
    (fun k hk => ?_) ?_ ?_ ?_ ?_ ?_ ?_ ?_ ?_ ?_ ?_ ?_ ?_).trans ?_
  · refine (slotRow_apply m c t b ⟨r.val + k, by have := r.isLt; omega⟩ d).trans ?_
    show Cert.Band.padRow _ _ (256 * (t.val % 16) + (r.val + k)) d = Cert.Band.padRow _ _ (256 * (t.val % 16) + r.val + k) d
    rw [Nat.add_assoc]
  · exact (row_apply (ms0_0 t) (hs0_0 t) _ 7 _ d).trans (leftBlock_apply m c t 7 d)
  · exact (row_apply (ms0_0 t) (hs0_0 t) _ 6 _ d).trans (leftBlock_apply m c t 6 d)
  · exact (row_apply (ms0_0 t) (hs0_0 t) _ 5 _ d).trans (leftBlock_apply m c t 5 d)
  · exact (row_apply (ms0_0 t) (hs0_0 t) _ 4 _ d).trans (leftBlock_apply m c t 4 d)
  · exact (row_apply (ms0_0 t) (hs0_0 t) _ 3 _ d).trans (leftBlock_apply m c t 3 d)
  · exact (row_apply (ms0_0 t) (hs0_0 t) _ 2 _ d).trans (leftBlock_apply m c t 2 d)
  · exact (row_apply (ms0_1 t) (hs0_1 t) _ 0 _ d).trans (rightBlock_apply m c t 0 d)
  · exact (row_apply (ms0_1 t) (hs0_1 t) _ 1 _ d).trans (rightBlock_apply m c t 1 d)
  · exact (row_apply (ms0_1 t) (hs0_1 t) _ 2 _ d).trans (rightBlock_apply m c t 2 d)
  · exact (row_apply (ms0_1 t) (hs0_1 t) _ 3 _ d).trans (rightBlock_apply m c t 3 d)
  · exact (row_apply (ms0_1 t) (hs0_1 t) _ 4 _ d).trans (rightBlock_apply m c t 4 d)
  · exact (row_apply (ms0_1 t) (hs0_1 t) _ 5 _ d).trans (rightBlock_apply m c t 5 d)
  · rfl

/-- Whatever its place in the copy schedule, point `t` leaves `pointValue` in the output's staging buffer. -/
theorem outsAt_eq (c : Dev nD) (t : Fin cfg0.N) :
    outsAt0 m c t.val t.isLt
      = pointValue c t (ms0_0 t) (hs0_0 t) (ms0_1 t) (hs0_1 t) (iblk m c 0 t) (iblk m c 1 t) (V m c main_v0) := by
  have ht : t.val < 64 := lt_of_lt_of_eq t.isLt N64
  by_cases h0 : t.val % 64 = 0
  · have h1 : t.val < 63 := by omega
    rw [outsAt0_A m c t h0 h1]
    exact pieceA c t _ _ _ _ _ _ _ _ _ _ _
  · by_cases h1 : t.val < 63
    · rw [outsAt0_B m c t h0 h1]
      exact pieceB c t _ _ _ _ _ _ _ _ _ _ _
    · rw [outsAt0_C m c t h0 h1]
      exact pieceC c t _ _ _ _ _ _ _ _ _ _ _

/-- WHAT POINT `t` WRITES BACK is block `t` of the specification's result of the argument arrays. -/
theorem flushed_eq (c : Dev nD) (t : Fin cfg0.N) :
    (dats m 0 c).flushed 2 t
      = ((cfg0.win 2).blk t).view.read (Elt Ideal) (Cert.Band.result (seqArg m c) (leftArg m c) (rightArg m c)) := by
  rw [Cert.KernelIdeal.Value.flushed2, outsAt_eq]
  obtain ⟨e0, e1, e2, -, -, -, -⟩ := index_facts t
  funext j
  show pointValue c t (ms0_0 t) (hs0_0 t) (ms0_1 t) (hs0_1 t) (iblk m c 0 t) (iblk m c 1 t) (V m c main_v0) j
    = Cert.Band.result (seqArg m c) (leftArg m c) (rightArg m c) (((cfg0.win 2).blk t).view.emb j)
  refine (pointValue_apply m c t j).trans (congrArg _ (funext fun a => Fin.ext ?_))
  match a with
  | ⟨0, _⟩ => show 4 * (t.val / 16) + (j 0).val = win0_2.index t (0 : Fin 3) * 4 + 1 * (j 0).val; omega
  | ⟨1, _⟩ => show 256 * (t.val % 16) + (j 1).val = win0_2.index t (1 : Fin 3) * 256 + 1 * (j 1).val; omega
  | ⟨2, _⟩ => show (j 2).val = win0_2.index t (2 : Fin 3) * 512 + 1 * (j 2).val; omega

/-- An index of the array is in point `t`'s block iff each coordinate is in the block's range on its axis. -/
theorem mem_block (t : Fin cfg0.N) (i : S16x4096x512.Idx) :
    i ∈ ((cfg0.win 2).blk t).view.set ↔ ∀ a : Fin 3, win0_2.index t a * S4x256x512.size a ≤ (i a).val ∧ (i a).val < win0_2.index t a * S4x256x512.size a + S4x256x512.size a := by
  show i ∈ ((View.whole main_v1).slice (win0_2.rect t)).set ↔ _
  rw [View.set_slice_whole, Rect.mem_set_unit]
  exact Iff.rfl

/-- The 64 blocks cover the array: index (B, T, d) lies in the block of point (B / 4, T / 256). -/
theorem covered (i : S16x4096x512.Idx) : ∃ t : Fin cfg0.N, (cfg0.win 2).flush t = true ∧ i ∈ ((cfg0.win 2).blk t).view.set := by
  have hi0 : (i 0).val < 16 := (i 0).isLt
  have hi1 : (i 1).val < 4096 := (i 1).isLt
  have hi2 : (i 2).val < 512 := (i 2).isLt
  obtain ⟨t, ht⟩ := index_onto ⟨(i 0).val / 4, by omega⟩ ⟨(i 1).val / 256, by omega⟩
  have q0 : win0_2.index t (0 : Fin 3) = (i 0).val / 4 := congrFun ht 0
  have q1 : win0_2.index t (1 : Fin 3) = (i 1).val / 256 := congrFun ht 1
  have q2 : win0_2.index t (2 : Fin 3) = 0 := congrFun ht 2
  refine ⟨t, flush0_2 t, ?_⟩
  rw [mem_block]
  intro a
  match a with
  | ⟨0, _⟩ => show win0_2.index t (0 : Fin 3) * 4 ≤ (i 0).val ∧ (i 0).val < win0_2.index t (0 : Fin 3) * 4 + 4; omega
  | ⟨1, _⟩ => show win0_2.index t (1 : Fin 3) * 256 ≤ (i 1).val ∧ (i 1).val < win0_2.index t (1 : Fin 3) * 256 + 256; omega
  | ⟨2, _⟩ => show win0_2.index t (2 : Fin 3) * 512 ≤ (i 2).val ∧ (i 2).val < win0_2.index t (2 : Fin 3) * 512 + 512; omega

/-- THE ARRAY after the run: the specification's result of the argument arrays. -/
theorem final (c : Dev nD) :
    (dats m 0 c).arrAt 2 cfg0.N = Cert.Band.result (seqArg m c) (leftArg m c) (rightArg m c) :=
  (dats m 0 c).arrAt_eq_of_cover 2 (Cert.Band.result (seqArg m c) (leftArg m c) (rightArg m c))
    (fun t _ => flushed_eq m c t) covered

/-- The kernel's run, read: the result array ends at the specification's result of the argument arrays, the
    arguments unchanged. -/
theorem run : θ_run defs (onTc (τ := τ) (main (F := Ideal))) ⟨m, fun _ => 0, ρ⟩ fun r => ∀ c : Dev nD,
      r.2.mem ((c : Thread nD τ).loc main_v1) = Cert.Band.result (seqArg m c) (leftArg m c) (rightArg m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Cert.KernelIdeal.Value.run_blocks m ρ)

end Cert.Band.Kernel

end
-- ==== Proof.lean ====
/-
  The certificate of the banded, strided memory sum: a kernel that streams the time-padded sequence through a ring of
  two scratch slots by its own copies, against the plain reference that pads, slices, scales and adds twelve times.

  Both programs compute, at every (batch, time, feature), the sequence's entry plus six rows behind it and six rows
  ahead of it (offsets 1, 4, 7, 10, 13, 16 either way), each scaled by a row of one of two small tables at that
  feature, a row outside the sequence counting as zero — thirteen terms, added left to right in the same order in both
  programs (`Cert.Band.result`, Proof/Spec.lean).  So the two results are the same extended real entry by entry with
  no law of arithmetic used: what is proved is only that both programs read the rows the specification names.
  - The reference (Proof/RefSide.lean): each of its twelve pad-then-slice shifts is the specification's padded row.
  - The kernel: what a grid point stores is the body's sum over the slot it loads, whichever point started the copy
    into that slot (Proof/KernelPieces.lean); the slot is a window of the padded sequence the host built
    (Proof/KernelOperand.lean); the body's sum at an entry is the thirteen terms (Proof/KernelPayload.lean); the 64
    blocks tile the result array (Proof/KernelArray.lean).
  The three frames are the generated frame runs; the idealization rewrote nothing, so it is preserved trivially.
-/
import proofs.«163114_j90013924590022_1_alg».proof.Defs
import proofs.«163114_j90013924590022_1_alg».proof.Proof.Gen.Kernel
import proofs.«163114_j90013924590022_1_alg».proof.Proof.Gen.Kernel.Skeleton
import proofs.«163114_j90013924590022_1_alg».proof.Proof.Gen.Kernel.Launch
import proofs.«163114_j90013924590022_1_alg».proof.Proof.Gen.Kernel.Points
import proofs.«163114_j90013924590022_1_alg».proof.Proof.Gen.Kernel.Frame
import proofs.«163114_j90013924590022_1_alg».proof.Proof.Gen.KernelIdeal
import proofs.«163114_j90013924590022_1_alg».proof.Proof.Gen.KernelIdeal.Skeleton
import proofs.«163114_j90013924590022_1_alg».proof.Proof.Gen.KernelIdeal.Launch
import proofs.«163114_j90013924590022_1_alg».proof.Proof.Gen.KernelIdeal.Points
import proofs.«163114_j90013924590022_1_alg».proof.Proof.Gen.KernelIdeal.Frame
import proofs.«163114_j90013924590022_1_alg».proof.Proof.Gen.ReferenceIdeal
import proofs.«163114_j90013924590022_1_alg».proof.Proof.Gen.Pre_finite_inputs
import proofs.«163114_j90013924590022_1_alg».proof.Proof.Gen.KernelIdeal.Value
import proofs.«163114_j90013924590022_1_alg».proof.Proof.Gen.ReferenceIdeal.Run
import proofs.«163114_j90013924590022_1_alg».proof.Proof.Gen.ReferenceIdeal.Read
import proofs.«163114_j90013924590022_1_alg».proof.Proof.Spec
import proofs.«163114_j90013924590022_1_alg».proof.Proof.RefSide
import proofs.«163114_j90013924590022_1_alg».proof.Proof.KernelArray
import Idealize.ShloMosaic.Adequacy
import Idealize.ShloMosaic.Init

noncomputable section

namespace Cert.Proof

open Idealize.ShloMosaic Idealize.ShloMosaic.TcCoe Idealize.SL.Sem

/-- The kernel as printed runs and leaves its arguments as they were. -/
theorem frame_kernel : Cert.frame_Kernel := fun m ρ _ => Cert.Kernel.Gen.frame m ρ

/-- So does its reading over the extended reals. -/
theorem frame_kernelIdeal : Cert.frame_KernelIdeal := fun m ρ _ => Cert.KernelIdeal.Gen.frame m ρ

/-- The reference's run, with its result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Over the extended reals both result arrays end at the specification's result of the argument arrays: the kernel's by
    its run read block by block, the reference's by its run read operation by operation; the arguments agree, so the
    two are one array. -/
theorem algebraic : Cert.algebraic_KernelIdeal_ReferenceIdeal := by
  intro m ρ m' ρ' _ hagree
  refine ⟨fun c => Cert.Band.result (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.Band.Kernel.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v95_eq, Cert.Band.Ref.ref_result, (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
